-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S33554432 : Shape := ⟨1, ![33554432]⟩
abbrev S_ : Shape := ⟨0, ![]⟩

class Facts : Prop where
  bcast_S_S33554432 : S_.BroadcastsInDim S33554432 (![] : Fin 0 → Fin S33554432.rank)
  reducesTo_S33554432_S_d0 : S33554432.ReducesTo [0] S_
  h_S_ : 0 < S_.numel

variable [Facts]

def fn {F : FTy → Type} [FloatOps F] (main_arg0 : FVec F S33554432 .f32) (main_arg1 : IVec S33554432 32) : IVec S_ 1 :=
  let main_v0 : FVec F S33554432 .f32 := Host.absf main_arg0
  let main_cst : FVec F S_ .f32 := constant S_ .f32 0x7F800000#32
  let main_v1 : FVec F S33554432 .f32 := broadcastInDim S33554432 ![] bcast_S_S33554432 main_cst
  let main_v2 : IVec S33554432 1 := cmpf .olt main_v0 main_v1
  let main_c : IVec S_ 1 := constantI S_ 1 1#1
  let main_v3 : IVec S_ 1 := (fun x v => Host.reduce IntOp.andi x v reducesTo_S33554432_S_d0 h_S_) main_v2 main_c
  main_v3
-- ==== Kernel.lean ====
abbrev S33554432 : Shape := ⟨1, ![33554432]⟩
abbrev S262144x128 : Shape := ⟨2, ![262144, 128]⟩
abbrev S1x128 : Shape := ⟨2, ![1, 128]⟩
abbrev S4096x128 : Shape := ⟨2, ![4096, 128]⟩
abbrev S4096 : Shape := ⟨1, ![4096]⟩
abbrev S1x4096 : Shape := ⟨2, ![1, 4096]⟩
abbrev S1 : Shape := ⟨1, ![1]⟩
abbrev S1x1 : Shape := ⟨2, ![1, 1]⟩
abbrev S1x10 : Shape := ⟨2, ![1, 10]⟩
abbrev S10 : Shape := ⟨1, ![10]⟩
abbrev S_ : Shape := ⟨0, ![]⟩

abbrev nBuf : Space → Nat
  | .hbm => 34
  | .vmem => 10
  | .smem => 0
  | _ => 0

abbrev bufTy : (tb : Table) → Fin (tcTables nBuf tb) → BufTy
  | .hbm, ⟨0, _⟩ => ⟨S33554432, .f32⟩
  | .hbm, ⟨1, _⟩ => ⟨S33554432, .i32⟩
  | .hbm, ⟨2, _⟩ => ⟨S262144x128, .f32⟩
  | .hbm, ⟨3, _⟩ => ⟨S262144x128, .i32⟩
  | .hbm, ⟨4, _⟩ => ⟨S1x128, .f32⟩
  | .hbm, ⟨5, _⟩ => ⟨S1x128, .f32⟩
  | .hbm, ⟨6, _⟩ => ⟨S1x128, .f32⟩
  | .hbm, ⟨7, _⟩ => ⟨S1x10, .f32⟩
  | .hbm, ⟨8, _⟩ => ⟨S10, .f32⟩
  | .hbm, ⟨9, _⟩ => ⟨S1x10, .f32⟩
  | .hbm, ⟨10, _⟩ => ⟨S10, .f32⟩
  | .hbm, ⟨11, _⟩ => ⟨S1x10, .f32⟩
  | .hbm, ⟨12, _⟩ => ⟨S10, .f32⟩
  | .hbm, ⟨13, _⟩ => ⟨S_, .f32⟩
  | .hbm, ⟨14, _⟩ => ⟨S10, .f32⟩
  | .hbm, ⟨15, _⟩ => ⟨S10, .f32⟩
  | .hbm, ⟨16, _⟩ => ⟨S10, .f32⟩
  | .hbm, ⟨17, _⟩ => ⟨S10, .f32⟩
  | .hbm, ⟨18, _⟩ => ⟨S10, .f32⟩
  | .hbm, ⟨19, _⟩ => ⟨S10, .f32⟩
  | .hbm, ⟨20, _⟩ => ⟨S_, .f32⟩
  | .hbm, ⟨21, _⟩ => ⟨S10, .f32⟩
  | .hbm, ⟨22, _⟩ => ⟨S10, .f32⟩
  | .hbm, ⟨23, _⟩ => ⟨S_, .f32⟩
  | .hbm, ⟨24, _⟩ => ⟨S10, .f32⟩
  | .hbm, ⟨25, _⟩ => ⟨S10, .i1⟩
  | .hbm, ⟨26, _⟩ => ⟨S10, .f32⟩
  | .hbm, ⟨27, _⟩ => ⟨S_, .f32⟩
  | .hbm, ⟨28, _⟩ => ⟨S_, .f32⟩
  | .hbm, ⟨29, _⟩ => ⟨S10, .f32⟩
  | .hbm, ⟨30, _⟩ => ⟨S10, .f32⟩
  | .hbm, ⟨31, _⟩ => ⟨S_, .f32⟩
  | .hbm, ⟨32, _⟩ => ⟨S_, .f32⟩
  | .hbm, ⟨33, _⟩ => ⟨S1, .f32⟩
  | .local _ .vmem, ⟨0, _⟩ => ⟨S4096x128, .f32⟩
  | .local _ .vmem, ⟨1, _⟩ => ⟨S4096x128, .f32⟩
  | .local _ .vmem, ⟨2, _⟩ => ⟨S4096x128, .i32⟩
  | .local _ .vmem, ⟨3, _⟩ => ⟨S4096x128, .i32⟩
  | .local _ .vmem, ⟨4, _⟩ => ⟨S1x128, .f32⟩
  | .local _ .vmem, ⟨5, _⟩ => ⟨S1x128, .f32⟩
  | .local _ .vmem, ⟨6, _⟩ => ⟨S1x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | _, _ => ⟨S33554432, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_0 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6

abbrev nD : Nat := 1
abbrev τ : Topo := Topo.v7x

variable {F : FTy → Type} [FloatOps F]

abbrev grid0 : Pipeline.Grid := ⟨1, ![64], ![false]⟩

def k0_cond2 (i : grid0.Coords) : BitVec 1 :=
  let arg0 : BitVec 32 := BitVec.ofNat 32 (i 0).val
  let c63_i32 : BitVec 32 := 63#32
  let v496 : BitVec 1 := Scalar.cmpi .eq arg0 c63_i32
  let v497 : BitVec 32 := Scalar.extui v496
  let c0_i32_200 : BitVec 32 := 0#32
  let v498 : BitVec 1 := Scalar.cmpi .ne v497 c0_i32_200
  v498

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

class Facts₀ : Prop where
  shapeCasts_S33554432_S262144x128 : S33554432.ShapeCasts S262144x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  natLt_1_32 : 1 < 32
  iota_S1x128_d1_w32 : S1x128.Iotas .tc 32 [1]
  reduces_S4096x128_S4096 : S4096x128.Reduces [1] S4096
  shapeCasts_S4096_S1x4096 : S4096.ShapeCasts S1x4096
  reduces_S1x4096_S1 : S1x4096.Reduces [1] S1
  shapeCasts_S1_S1x1 : S1.ShapeCasts S1x1
  inpos_S1x1_p0_0 : ∀ a, (![0, 0] : Fin 2 → Nat) a < S1x1.size a
  slices_S1x128_S1x10_0_0 : S1x128.Slices ![0, 0] S1x10
  shapeCasts_S1x10_S10 : S1x10.ShapeCasts S10
  bcast_S_S10 : S_.BroadcastsInDim S10 (![] : Fin 0 → Fin S10.rank)
  reducesTo_S10_S_d0 : S10.ReducesTo [0] S_
  h_S_ : 0 < S_.numel
  shapeCasts_S_S1 : S_.ShapeCasts S1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S262144x128.size a
  hwx0_0 : ∀ i : grid0.Coords, EltTy.bits .f32 = 32 ∨ (Rect.block (s := S262144x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S262144x128.size a
  hwx0_1 : ∀ i : grid0.Coords, EltTy.bits .i32 = 32 ∨ (Rect.block (s := S262144x128) S4096x128.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)

variable [Facts₀]

abbrev win0_0 : Pipeline.Window sig grid0 :=
  Pipeline.Window.ofSpec (Memref.whole main_v0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S1x128.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1x128.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2_2) S1x128.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun i => !(k0_cond2 i == 1#1) | 3 => fun i => !(k0_cond2 i == 1#1) | 4 => fun i => !(k0_cond2 i == 1#1) | ⟨_ + 5, h⟩ => absurd h (Nat.not_lt.2 (Nat.le_add_left _ _))

class Facts : Prop extends Facts₀ where

variable [Facts]
-- ==== ReferenceIdeal.lean ====
abbrev S33554432 : Shape := ⟨1, ![33554432]⟩
abbrev S_ : Shape := ⟨0, ![]⟩
abbrev S10 : Shape := ⟨1, ![10]⟩
abbrev S33554432x1 : Shape := ⟨2, ![33554432, 1]⟩
abbrev S1 : Shape := ⟨1, ![1]⟩

abbrev nBuf : Space → Nat
  | .hbm => 62
  | .vmem => 0
  | .smem => 0
  | _ => 0

abbrev bufTy : (tb : Table) → Fin (tcTables nBuf tb) → BufTy
  | .hbm, ⟨0, _⟩ => ⟨S33554432, .f32⟩
  | .hbm, ⟨1, _⟩ => ⟨S33554432, .i32⟩
  | .hbm, ⟨2, _⟩ => ⟨S33554432, .f32⟩
  | .hbm, ⟨3, _⟩ => ⟨S_, .f32⟩
  | .hbm, ⟨4, _⟩ => ⟨S33554432, .f32⟩
  | .hbm, ⟨5, _⟩ => ⟨S33554432, .f32⟩
  | .hbm, ⟨6, _⟩ => ⟨S33554432, .f32⟩
  | .hbm, ⟨7, _⟩ => ⟨S33554432, .i32⟩
  | .hbm, ⟨8, _⟩ => ⟨S_, .i32⟩
  | .hbm, ⟨9, _⟩ => ⟨S33554432, .i32⟩
  | .hbm, ⟨10, _⟩ => ⟨S33554432, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S33554432, .i32⟩
  | .hbm, ⟨15, _⟩ => ⟨S33554432, .i32⟩
  | .hbm, ⟨16, _⟩ => ⟨S_, .i32⟩
  | .hbm, ⟨17, _⟩ => ⟨S33554432, .i32⟩
  | .hbm, ⟨18, _⟩ => ⟨S33554432, .i32⟩
  | .hbm, ⟨19, _⟩ => ⟨S_, .f32⟩
  | .hbm, ⟨20, _⟩ => ⟨S33554432, .f32⟩
  | .hbm, ⟨21, _⟩ => ⟨S33554432, .i1⟩
  | .hbm, ⟨22, _⟩ => ⟨S_, .f32⟩
  | .hbm, ⟨23, _⟩ => ⟨S33554432, .f32⟩
  | .hbm, ⟨24, _⟩ => ⟨S33554432, .i1⟩
  | .hbm, ⟨25, _⟩ => ⟨S33554432, .i1⟩
  | .hbm, ⟨26, _⟩ => ⟨S33554432, .f32⟩
  | .hbm, ⟨27, _⟩ => ⟨S_, .f32⟩
  | .hbm, ⟨28, _⟩ => ⟨S10, .f32⟩
  | .hbm, ⟨29, _⟩ => ⟨S33554432x1, .i32⟩
  | .hbm, ⟨30, _⟩ => ⟨S10, .f32⟩
  | .hbm, ⟨31, _⟩ => ⟨S33554432, .f32⟩
  | .hbm, ⟨32, _⟩ => ⟨S_, .f32⟩
  | .hbm, ⟨33, _⟩ => ⟨S10, .f32⟩
  | .hbm, ⟨34, _⟩ => ⟨S33554432x1, .i32⟩
  | .hbm, ⟨35, _⟩ => ⟨S10, .f32⟩
  | .hbm, ⟨36, _⟩ => ⟨S33554432, .f32⟩
  | .hbm, ⟨37, _⟩ => ⟨S_, .f32⟩
  | .hbm, ⟨38, _⟩ => ⟨S10, .f32⟩
  | .hbm, ⟨39, _⟩ => ⟨S33554432x1, .i32⟩
  | .hbm, ⟨40, _⟩ => ⟨S10, .f32⟩
  | .hbm, ⟨41, _⟩ => ⟨S_, .f32⟩
  | .hbm, ⟨42, _⟩ => ⟨S10, .f32⟩
  | .hbm, ⟨43, _⟩ => ⟨S10, .f32⟩
  | .hbm, ⟨44, _⟩ => ⟨S10, .f32⟩
  | .hbm, ⟨45, _⟩ => ⟨S10, .f32⟩
  | .hbm, ⟨46, _⟩ => ⟨S10, .f32⟩
  | .hbm, ⟨47, _⟩ => ⟨S10, .f32⟩
  | .hbm, ⟨48, _⟩ => ⟨S_, .f32⟩
  | .hbm, ⟨49, _⟩ => ⟨S10, .f32⟩
  | .hbm, ⟨50, _⟩ => ⟨S10, .f32⟩
  | .hbm, ⟨51, _⟩ => ⟨S_, .f32⟩
  | .hbm, ⟨52, _⟩ => ⟨S10, .f32⟩
  | .hbm, ⟨53, _⟩ => ⟨S10, .i1⟩
  | .hbm, ⟨54, _⟩ => ⟨S10, .f32⟩
  | .hbm, ⟨55, _⟩ => ⟨S_, .f32⟩
  | .hbm, ⟨56, _⟩ => ⟨S_, .f32⟩
  | .hbm, ⟨57, _⟩ => ⟨S10, .f32⟩
  | .hbm, ⟨58, _⟩ => ⟨S10, .f32⟩
  | .hbm, ⟨59, _⟩ => ⟨S_, .f32⟩
  | .hbm, ⟨60, _⟩ => ⟨S_, .f32⟩
  | .hbm, ⟨61, _⟩ => ⟨S1, .f32⟩
  | _, _ => ⟨S33554432, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_v5 : Ref sig .tc := ⟨.hbm, 9, rfl⟩
abbrev main_v6 : Ref sig .tc := ⟨.hbm, 10, rfl⟩
abbrev main_c_0 : Ref sig .tc := ⟨.hbm, 11, rfl⟩
abbrev main_c_1 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_cst_3 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_4 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_5 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_6 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_7 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_8 : Ref sig .tc := ⟨.hbm, 48, rfl⟩
abbrev main_v31 : Ref sig .tc := ⟨.hbm, 49, rfl⟩
abbrev main_v32 : Ref sig .tc := ⟨.hbm, 50, rfl⟩
abbrev main_cst_9 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_10 : Ref sig .tc := ⟨.hbm, 55, rfl⟩
abbrev main_call1_v0 : Ref sig .tc := ⟨.hbm, 56, rfl⟩
abbrev main_call1_v1 : Ref sig .tc := ⟨.hbm, 57, rfl⟩
abbrev main_v36 : Ref sig .tc := ⟨.hbm, 58, rfl⟩
abbrev main_cst_11 : Ref sig .tc := ⟨.hbm, 59, rfl⟩
abbrev main_v37 : Ref sig .tc := ⟨.hbm, 60, rfl⟩
abbrev main_v38 : Ref sig .tc := ⟨.hbm, 61, rfl⟩

abbrev nD : Nat := 1
abbrev τ : Topo := Topo.v7x

variable {F : FTy → Type} [FloatOps F]

class Facts₀ : Prop where
  bcast_S_S33554432 : S_.BroadcastsInDim S33554432 (![] : Fin 0 → Fin S33554432.rank)
  bcast_S_S10 : S_.BroadcastsInDim S10 (![] : Fin 0 → Fin S10.rank)
  bcast_S33554432_S33554432x1_0 : S33554432.BroadcastsInDim S33554432x1 (![0] : Fin 1 → Fin S33554432x1.rank)
  reducesTo_S10_S_d0 : S10.ReducesTo [0] S_
  h_S_ : 0 < S_.numel
  shapeCasts_S_S1 : S_.ShapeCasts S1
  scatter_S10_S33554432x1_S33554432_n_0_0_1_wf : ScatterDims.WF S10 S33554432x1 S33554432 [] [0] [0] 1

variable [Facts₀]

def scatter_S10_S33554432x1_S33554432_n_0_0_1 : ScatterDims S10 S33554432x1 S33554432 where
  updateWindowDims := []
  insertedWindowDims := [0]
  scatterDimsToOperandDims := [0]
  indexVectorDim := 1
  wf := scatter_S10_S33554432x1_S33554432_n_0_0_1_wf

class Facts : Prop extends Facts₀ where

variable [Facts]
-- ==== Proof.KStep.lean ====
/-
  One grid point of the histogram kernel, as three pure functions of the point's input blocks and
  of what the three accumulator rows held before it.

  The body adds, for each of the ten bins `b` in turn, `onehot_b · s_b` to each accumulator row,
  where `onehot_b` is the indicator of lane `b` and `s_b` the sum over the whole block of the bin's
  masked term (the mask itself for the counts, mask · confidence, mask · correctness).  Each of
  the thirty updates is one payload of the printed body; the three chains below thread the row
  through the ten payloads of its accumulator, in program order.
-/
import proofs.«117713_j17343077941754_1_alg».proof.Proof.Gen.KernelIdeal.Skeleton

noncomputable section

namespace Cert.KernelIdeal.Hist

open Idealize.ShloMosaic Cert.KernelIdeal Cert.KernelIdeal.Gen

variable {F : FTy → Type} [FloatOps F]

/-- The lane numbers `0 … 127` of a `1 × 128` row. -/
def lanes : IVec S1x128 32 := iota .tc S1x128 32 [1] iota_S1x128_d1_w32

/-- The count row after one point: the row before it plus, lane `b`, the number of valid
    confidences of the block that fall in bin `b`. -/
def cntStep (x0 : Vec F S4096x128 .f32) (prev : Vec F S1x128 .f32) : Vec F S1x128 .f32 :=
  let v17 := k0_pay8 x0
  let v24 := k0_pay9 x0
  let p0 := k0_pay14 lanes (k0_pay11 x0) prev
  let p1 := k0_pay20 lanes (k0_pay18 v17 v24) p0
  let p2 := k0_pay26 v17 v24 lanes p1
  let p3 := k0_pay32 v17 v24 lanes p2
  let p4 := k0_pay41 (k0_pay40 v17 v24 lanes p3)
  let p5 := k0_pay49 lanes (k0_pay45 v17 v24) 5#32 p4
  let p6 := k0_pay56 lanes (k0_pay53 v17 v24) p5
  let p7 := k0_pay62 lanes (k0_pay60 v17 v24) p6
  let p8 := k0_pay68 v17 v24 lanes p7
  k0_pay74 v17 v24 lanes p8

/-- The confidence-sum row after one point. -/
def confStep (x0 : Vec F S4096x128 .f32) (prev : Vec F S1x128 .f32) : Vec F S1x128 .f32 :=
  let v4 := k0_pay6 x0
  let v17 := k0_pay8 x0
  let v24 := k0_pay9 x0
  let q0 := k0_pay15 lanes (k0_pay12 x0) prev
  let q1 := k0_pay21 v4 lanes (k0_pay17 v17 v24) q0
  let q2 := k0_pay27 v4 v17 v24 lanes q1
  let q3 := k0_pay34 (k0_pay31 lanes) q2 (k0_pay33 v4 v17 v24)
  let q4 := k0_pay42 (k0_pay37 v4 v17 v24) (k0_pay39 lanes) q3
  let q5 := k0_pay50 lanes (k0_pay46 v4 v17 v24) 5#32 q4
  let q6 := k0_pay57 lanes (k0_pay54 v4 v17 v24) q5
  let q7 := k0_pay63 v4 lanes (k0_pay59 v17 v24) q6
  let q8 := k0_pay69 v4 v17 v24 lanes q7
  k0_pay1 (k0_pay73 lanes) q8 (k0_pay75 v4 v17 v24)

/-- The correctness-sum row after one point. -/
def accStep (x0 : Vec F S4096x128 .f32) (x1 : Vec F S4096x128 .i32) (prev : Vec F S1x128 .f32) : Vec F S1x128 .f32 :=
  let v7 := k0_pay7 x1
  let v17 := k0_pay8 x0
  let v24 := k0_pay9 x0
  let r0 := k0_pay16 v7 lanes (k0_pay10 x0) prev
  let r1 := k0_pay22 v7 lanes (k0_pay17 v17 v24) r0
  let r2 := k0_pay28 (k0_pay24 v7 v17 v24) (k0_pay25 lanes) r1
  let r3 := k0_pay35 (k0_pay30 v7 v17 v24) (k0_pay31 lanes) r2
  let r4 := k0_pay43 (k0_pay38 v7 v17 v24) (k0_pay39 lanes) r3
  let r5 := k0_pay51 lanes (k0_pay47 v7 v17 v24) 5#32 r4
  let r6 := k0_pay58 v7 lanes (k0_pay52 v17 v24) r5
  let r7 := k0_pay64 v7 lanes (k0_pay59 v17 v24) r6
  let r8 := k0_pay70 (k0_pay66 v7 v17 v24) (k0_pay67 lanes) r7
  k0_pay2 (k0_pay72 v7 v17 v24) (k0_pay73 lanes) r8

/-- The three rows a point that resets them starts from. -/
def zeroRow : Vec F S1x128 .f32 := k0_pay3 (F := F)

end Cert.KernelIdeal.Hist

end
-- ==== Proof.KAt.lean ====
/-
  The three accumulator rows after each grid point, as a recursion on the point: the first point
  starts from the zero row, every later one from what the point before left.
-/
import proofs.«117713_j17343077941754_1_alg».proof.Proof.Gen.KernelIdeal.Frame.Runs
import proofs.«117713_j17343077941754_1_alg».proof.Proof.KStep

noncomputable section

namespace Cert.KernelIdeal.Hist

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ)

/-- The block of confidences the window of the first operand holds at point `t`. -/
abbrev blkC (c : Dev nD) (t : Fin cfg0.N) : Vec F S4096x128 .f32 := iblk m c 0 t
/-- The block of correctness words the window of the second operand holds at point `t`. -/
abbrev blkQ (c : Dev nD) (t : Fin cfg0.N) : Vec F S4096x128 .i32 := iblk m c 1 t

/-- The count row after point `n`. -/
def cntAt (c : Dev nD) : (n : ℕ) → n < cfg0.N → Vec F S1x128 .f32
  | 0, h => cntStep (blkC m c ⟨0, h⟩) zeroRow
  | n + 1, h => cntStep (blkC m c ⟨n + 1, h⟩) (cntAt c n (Nat.lt_of_succ_lt h))

/-- The confidence-sum row after point `n`. -/
def confAt (c : Dev nD) : (n : ℕ) → n < cfg0.N → Vec F S1x128 .f32
  | 0, h => confStep (blkC m c ⟨0, h⟩) zeroRow
  | n + 1, h => confStep (blkC m c ⟨n + 1, h⟩) (confAt c n (Nat.lt_of_succ_lt h))

/-- The correctness-sum row after point `n`. -/
def accAt (c : Dev nD) : (n : ℕ) → n < cfg0.N → Vec F S1x128 .f32
  | 0, h => accStep (blkC m c ⟨0, h⟩) (blkQ m c ⟨0, h⟩) zeroRow
  | n + 1, h => accStep (blkC m c ⟨n + 1, h⟩) (blkQ m c ⟨n + 1, h⟩) (accAt c n (Nat.lt_of_succ_lt h))

end Cert.KernelIdeal.Hist

end
-- ==== Proof.KPieces.lean ====
/-
  What each control case of the histogram kernel leaves in its three accumulator rows and, at the
  last grid point, in its three outputs: the ten updates of a row, threaded in program order.

  A point of the grid falls in one of three cases: the first point (the rows are reset to zero, then
  updated), a middle point (the rows are updated over what the point before left), the last point
  (updated, then copied to the outputs).  In every case row `j` ends at its chain of ten updates applied
  to what it started the point with.

  Every store of a row goes through the whole-row rectangle at offsets (0, 0), so the row ends at the
  payload of its last store; every load of a row after a store goes through that same rectangle and so
  reads the payload of the store just before it; the first load of a row at a middle or last point reads
  what the point before left, and the loads of the two input blocks read the blocks.
-/
import proofs.«117713_j17343077941754_1_alg».proof.Proof.Gen.KernelIdeal.Frame
import proofs.«117713_j17343077941754_1_alg».proof.Proof.KStep
import Idealize.ShloMosaic.Lib.Pipeline.Value
import Idealize.ShloMosaic.Lib.Tactic

noncomputable section

namespace Cert.KernelIdeal.Hist

open Idealize.ShloMosaic Idealize.ShloMosaic.TcCoe Idealize.SL.Sem
open Cert.KernelIdeal Cert.KernelIdeal.Gen

variable {F : FTy → Type} [FloatOps F]

/-- The offsets (0, 0) are the zero offsets. -/
private theorem hz : (![0, 0] : Fin 2 → Nat) = fun _ => 0 := funext fun a => by fin_cases a <;> rfl

/-- Case A: what the point leaves in accumulator row 0. -/
theorem sout_A_0 (c : Dev nD) (i : grid0.Coords) (arg1 : Memref sig .tc .vmem S4096x128 .f32) (harg1 : arg1.IsWhole) (arg2 : Memref sig .tc .vmem S4096x128 .i32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond0_0 i) (hc1 : ¬cond0_1 i)
    (x0 : Vec F S4096x128 .f32) (x1 : Vec F S4096x128 .i32) :
    sout0_A_0 c i arg1 harg1 arg2 harg2 arg3 harg3 arg4 harg4 arg5 harg5 arg6 harg6 arg7 harg7 arg8 harg8 hc0 hc1 x0 x1 = cntStep x0 zeroRow := by
  unfold sout0_A_0
  rw [View.read_writes_eq_canon _ _ _ (scover0_A_0 c i arg1 harg1 arg2 harg2 arg3 harg3 arg4 harg4 arg5 harg5 arg6 harg6 arg7 harg7 arg8 harg8 hc0 hc1 x0 x1)]
  unfold kernelRun0_A
  dsimp only
  sl_unfold_words
  rw [View.canon_cons_unit_zero (S := S1x128) hz]
  simp only [↓ View.readCov_cons_toLoadRect, View.readAt_eq_ld, harg1.read_unread, harg2.read_unread, harg6.read_unread, harg7.read_unread, harg8.read_unread,
    View.ld_unit_zero (S := S4096x128) hz, View.ld_unit_zero (S := S1x128) hz]
  rfl

/-- Case A: what the point leaves in accumulator row 1. -/
theorem sout_A_1 (c : Dev nD) (i : grid0.Coords) (arg1 : Memref sig .tc .vmem S4096x128 .f32) (harg1 : arg1.IsWhole) (arg2 : Memref sig .tc .vmem S4096x128 .i32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond0_0 i) (hc1 : ¬cond0_1 i)
    (x0 : Vec F S4096x128 .f32) (x1 : Vec F S4096x128 .i32) :
    sout0_A_1 c i arg1 harg1 arg2 harg2 arg3 harg3 arg4 harg4 arg5 harg5 arg6 harg6 arg7 harg7 arg8 harg8 hc0 hc1 x0 x1 = confStep x0 zeroRow := by
  unfold sout0_A_1
  rw [View.read_writes_eq_canon _ _ _ (scover0_A_1 c i arg1 harg1 arg2 harg2 arg3 harg3 arg4 harg4 arg5 harg5 arg6 harg6 arg7 harg7 arg8 harg8 hc0 hc1 x0 x1)]
  unfold kernelRun0_A
  dsimp only
  sl_unfold_words
  rw [View.canon_cons_unit_zero (S := S1x128) hz]
  simp only [↓ View.readCov_cons_toLoadRect, View.readAt_eq_ld, harg1.read_unread, harg2.read_unread, harg6.read_unread, harg7.read_unread, harg8.read_unread,
    View.ld_unit_zero (S := S4096x128) hz, View.ld_unit_zero (S := S1x128) hz]
  rfl

/-- Case A: what the point leaves in accumulator row 2. -/
theorem sout_A_2 (c : Dev nD) (i : grid0.Coords) (arg1 : Memref sig .tc .vmem S4096x128 .f32) (harg1 : arg1.IsWhole) (arg2 : Memref sig .tc .vmem S4096x128 .i32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond0_0 i) (hc1 : ¬cond0_1 i)
    (x0 : Vec F S4096x128 .f32) (x1 : Vec F S4096x128 .i32) :
    sout0_A_2 c i arg1 harg1 arg2 harg2 arg3 harg3 arg4 harg4 arg5 harg5 arg6 harg6 arg7 harg7 arg8 harg8 hc0 hc1 x0 x1 = accStep x0 x1 zeroRow := by
  unfold sout0_A_2
  rw [View.read_writes_eq_canon _ _ _ (scover0_A_2 c i arg1 harg1 arg2 harg2 arg3 harg3 arg4 harg4 arg5 harg5 arg6 harg6 arg7 harg7 arg8 harg8 hc0 hc1 x0 x1)]
  unfold kernelRun0_A
  dsimp only
  sl_unfold_words
  rw [View.canon_cons_unit_zero (S := S1x128) hz]
  simp only [↓ View.readCov_cons_toLoadRect, View.readAt_eq_ld, harg1.read_unread, harg2.read_unread, harg6.read_unread, harg7.read_unread, harg8.read_unread,
    View.ld_unit_zero (S := S4096x128) hz, View.ld_unit_zero (S := S1x128) hz]
  rfl

/-- Case B: what the point leaves in accumulator row 0. -/
theorem sout_B_0 (c : Dev nD) (i : grid0.Coords) (arg1 : Memref sig .tc .vmem S4096x128 .f32) (harg1 : arg1.IsWhole) (arg2 : Memref sig .tc .vmem S4096x128 .i32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : ¬cond0_1 i)
    (x0 : Vec F S4096x128 .f32) (x1 : Vec F S4096x128 .i32) (xs0 : Vec F S1x128 .f32) (xs1 : Vec F S1x128 .f32) (xs2 : Vec F S1x128 .f32) :
    sout0_B_0 c i arg1 harg1 arg2 harg2 arg3 harg3 arg4 harg4 arg5 harg5 arg6 harg6 arg7 harg7 arg8 harg8 hc0 hc1 x0 x1 xs0 xs1 xs2 = cntStep x0 xs0 := by
  unfold sout0_B_0
  rw [View.read_writes_eq_canon _ _ _ (scover0_B_0 c i arg1 harg1 arg2 harg2 arg3 harg3 arg4 harg4 arg5 harg5 arg6 harg6 arg7 harg7 arg8 harg8 hc0 hc1 x0 x1 xs0 xs1 xs2)]
  unfold kernelRun0_B
  dsimp only
  sl_unfold_words
  rw [View.canon_cons_unit_zero (S := S1x128) hz]
  simp only [↓ View.readCov_cons_toLoadRect, View.readAt_eq_ld, harg1.read_unread, harg2.read_unread, harg6.read_unread, harg7.read_unread, harg8.read_unread,
    View.ld_unit_zero (S := S4096x128) hz, View.ld_unit_zero (S := S1x128) hz]
  rfl

/-- Case B: what the point leaves in accumulator row 1. -/
theorem sout_B_1 (c : Dev nD) (i : grid0.Coords) (arg1 : Memref sig .tc .vmem S4096x128 .f32) (harg1 : arg1.IsWhole) (arg2 : Memref sig .tc .vmem S4096x128 .i32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : ¬cond0_1 i)
    (x0 : Vec F S4096x128 .f32) (x1 : Vec F S4096x128 .i32) (xs0 : Vec F S1x128 .f32) (xs1 : Vec F S1x128 .f32) (xs2 : Vec F S1x128 .f32) :
    sout0_B_1 c i arg1 harg1 arg2 harg2 arg3 harg3 arg4 harg4 arg5 harg5 arg6 harg6 arg7 harg7 arg8 harg8 hc0 hc1 x0 x1 xs0 xs1 xs2 = confStep x0 xs1 := by
  unfold sout0_B_1
  rw [View.read_writes_eq_canon _ _ _ (scover0_B_1 c i arg1 harg1 arg2 harg2 arg3 harg3 arg4 harg4 arg5 harg5 arg6 harg6 arg7 harg7 arg8 harg8 hc0 hc1 x0 x1 xs0 xs1 xs2)]
  unfold kernelRun0_B
  dsimp only
  sl_unfold_words
  rw [View.canon_cons_unit_zero (S := S1x128) hz]
  simp only [↓ View.readCov_cons_toLoadRect, View.readAt_eq_ld, harg1.read_unread, harg2.read_unread, harg6.read_unread, harg7.read_unread, harg8.read_unread,
    View.ld_unit_zero (S := S4096x128) hz, View.ld_unit_zero (S := S1x128) hz]
  rfl

/-- Case B: what the point leaves in accumulator row 2. -/
theorem sout_B_2 (c : Dev nD) (i : grid0.Coords) (arg1 : Memref sig .tc .vmem S4096x128 .f32) (harg1 : arg1.IsWhole) (arg2 : Memref sig .tc .vmem S4096x128 .i32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : ¬cond0_1 i)
    (x0 : Vec F S4096x128 .f32) (x1 : Vec F S4096x128 .i32) (xs0 : Vec F S1x128 .f32) (xs1 : Vec F S1x128 .f32) (xs2 : Vec F S1x128 .f32) :
    sout0_B_2 c i arg1 harg1 arg2 harg2 arg3 harg3 arg4 harg4 arg5 harg5 arg6 harg6 arg7 harg7 arg8 harg8 hc0 hc1 x0 x1 xs0 xs1 xs2 = accStep x0 x1 xs2 := by
  unfold sout0_B_2
  rw [View.read_writes_eq_canon _ _ _ (scover0_B_2 c i arg1 harg1 arg2 harg2 arg3 harg3 arg4 harg4 arg5 harg5 arg6 harg6 arg7 harg7 arg8 harg8 hc0 hc1 x0 x1 xs0 xs1 xs2)]
  unfold kernelRun0_B
  dsimp only
  sl_unfold_words
  rw [View.canon_cons_unit_zero (S := S1x128) hz]
  simp only [↓ View.readCov_cons_toLoadRect, View.readAt_eq_ld, harg1.read_unread, harg2.read_unread, harg6.read_unread, harg7.read_unread, harg8.read_unread,
    View.ld_unit_zero (S := S4096x128) hz, View.ld_unit_zero (S := S1x128) hz]
  rfl

/-- Case C: what the point leaves in accumulator row 0. -/
theorem sout_C_0 (c : Dev nD) (i : grid0.Coords) (arg1 : Memref sig .tc .vmem S4096x128 .f32) (harg1 : arg1.IsWhole) (arg2 : Memref sig .tc .vmem S4096x128 .i32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : cond0_1 i)
    (x0 : Vec F S4096x128 .f32) (x1 : Vec F S4096x128 .i32) (xs0 : Vec F S1x128 .f32) (xs1 : Vec F S1x128 .f32) (xs2 : Vec F S1x128 .f32) :
    sout0_C_0 c i arg1 harg1 arg2 harg2 arg3 harg3 arg4 harg4 arg5 harg5 arg6 harg6 arg7 harg7 arg8 harg8 hc0 hc1 x0 x1 xs0 xs1 xs2 = cntStep x0 xs0 := by
  unfold sout0_C_0
  rw [View.read_writes_eq_canon _ _ _ (scover0_C_0 c i arg1 harg1 arg2 harg2 arg3 harg3 arg4 harg4 arg5 harg5 arg6 harg6 arg7 harg7 arg8 harg8 hc0 hc1 x0 x1 xs0 xs1 xs2)]
  unfold kernelRun0_C
  dsimp only
  sl_unfold_words
  rw [View.canon_cons_unit_zero (S := S1x128) hz]
  simp only [↓ View.readCov_cons_toLoadRect, View.readAt_eq_ld, harg1.read_unread, harg2.read_unread, harg6.read_unread, harg7.read_unread, harg8.read_unread,
    View.ld_unit_zero (S := S4096x128) hz, View.ld_unit_zero (S := S1x128) hz]
  rfl

/-- Case C: what the point leaves in accumulator row 1. -/
theorem sout_C_1 (c : Dev nD) (i : grid0.Coords) (arg1 : Memref sig .tc .vmem S4096x128 .f32) (harg1 : arg1.IsWhole) (arg2 : Memref sig .tc .vmem S4096x128 .i32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : cond0_1 i)
    (x0 : Vec F S4096x128 .f32) (x1 : Vec F S4096x128 .i32) (xs0 : Vec F S1x128 .f32) (xs1 : Vec F S1x128 .f32) (xs2 : Vec F S1x128 .f32) :
    sout0_C_1 c i arg1 harg1 arg2 harg2 arg3 harg3 arg4 harg4 arg5 harg5 arg6 harg6 arg7 harg7 arg8 harg8 hc0 hc1 x0 x1 xs0 xs1 xs2 = confStep x0 xs1 := by
  unfold sout0_C_1
  rw [View.read_writes_eq_canon _ _ _ (scover0_C_1 c i arg1 harg1 arg2 harg2 arg3 harg3 arg4 harg4 arg5 harg5 arg6 harg6 arg7 harg7 arg8 harg8 hc0 hc1 x0 x1 xs0 xs1 xs2)]
  unfold kernelRun0_C
  dsimp only
  sl_unfold_words
  rw [View.canon_cons_unit_zero (S := S1x128) hz]
  simp only [↓ View.readCov_cons_toLoadRect, View.readAt_eq_ld, harg1.read_unread, harg2.read_unread, harg6.read_unread, harg7.read_unread, harg8.read_unread,
    View.ld_unit_zero (S := S4096x128) hz, View.ld_unit_zero (S := S1x128) hz]
  rfl

/-- Case C: what the point leaves in accumulator row 2. -/
theorem sout_C_2 (c : Dev nD) (i : grid0.Coords) (arg1 : Memref sig .tc .vmem S4096x128 .f32) (harg1 : arg1.IsWhole) (arg2 : Memref sig .tc .vmem S4096x128 .i32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : cond0_1 i)
    (x0 : Vec F S4096x128 .f32) (x1 : Vec F S4096x128 .i32) (xs0 : Vec F S1x128 .f32) (xs1 : Vec F S1x128 .f32) (xs2 : Vec F S1x128 .f32) :
    sout0_C_2 c i arg1 harg1 arg2 harg2 arg3 harg3 arg4 harg4 arg5 harg5 arg6 harg6 arg7 harg7 arg8 harg8 hc0 hc1 x0 x1 xs0 xs1 xs2 = accStep x0 x1 xs2 := by
  unfold sout0_C_2
  rw [View.read_writes_eq_canon _ _ _ (scover0_C_2 c i arg1 harg1 arg2 harg2 arg3 harg3 arg4 harg4 arg5 harg5 arg6 harg6 arg7 harg7 arg8 harg8 hc0 hc1 x0 x1 xs0 xs1 xs2)]
  unfold kernelRun0_C
  dsimp only
  sl_unfold_words
  rw [View.canon_cons_unit_zero (S := S1x128) hz]
  simp only [↓ View.readCov_cons_toLoadRect, View.readAt_eq_ld, harg1.read_unread, harg2.read_unread, harg6.read_unread, harg7.read_unread, harg8.read_unread,
    View.ld_unit_zero (S := S4096x128) hz, View.ld_unit_zero (S := S1x128) hz]
  rfl

/-- The last point copies accumulator row 0, as it has just left it, into output 2. -/
theorem out_C_2 (c : Dev nD) (i : grid0.Coords) (arg1 : Memref sig .tc .vmem S4096x128 .f32) (harg1 : arg1.IsWhole) (arg2 : Memref sig .tc .vmem S4096x128 .i32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : cond0_1 i)
    (x0 : Vec F S4096x128 .f32) (x1 : Vec F S4096x128 .i32) (xs0 : Vec F S1x128 .f32) (xs1 : Vec F S1x128 .f32) (xs2 : Vec F S1x128 .f32) :
    out0_C_2 c i arg1 harg1 arg2 harg2 arg3 harg3 arg4 harg4 arg5 harg5 arg6 harg6 arg7 harg7 arg8 harg8 hc0 hc1 x0 x1 xs0 xs1 xs2 = cntStep x0 xs0 := by
  unfold out0_C_2
  rw [View.read_writes_eq_canon _ _ _ (cover0_C_2 c i arg1 harg1 arg2 harg2 arg3 harg3 arg4 harg4 arg5 harg5 arg6 harg6 arg7 harg7 arg8 harg8 hc0 hc1 x0 x1 xs0 xs1 xs2)]
  unfold kernelRun0_C
  dsimp only
  sl_unfold_words
  rw [View.canon_cons_unit_zero (S := S1x128) hz]
  simp only [↓ View.readCov_cons_toLoadRect, View.readAt_eq_ld, harg1.read_unread, harg2.read_unread, harg6.read_unread, harg7.read_unread, harg8.read_unread,
    View.ld_unit_zero (S := S4096x128) hz, View.ld_unit_zero (S := S1x128) hz]
  rfl

/-- The last point copies accumulator row 1, as it has just left it, into output 3. -/
theorem out_C_3 (c : Dev nD) (i : grid0.Coords) (arg1 : Memref sig .tc .vmem S4096x128 .f32) (harg1 : arg1.IsWhole) (arg2 : Memref sig .tc .vmem S4096x128 .i32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : cond0_1 i)
    (x0 : Vec F S4096x128 .f32) (x1 : Vec F S4096x128 .i32) (xs0 : Vec F S1x128 .f32) (xs1 : Vec F S1x128 .f32) (xs2 : Vec F S1x128 .f32) :
    out0_C_3 c i arg1 harg1 arg2 harg2 arg3 harg3 arg4 harg4 arg5 harg5 arg6 harg6 arg7 harg7 arg8 harg8 hc0 hc1 x0 x1 xs0 xs1 xs2 = confStep x0 xs1 := by
  unfold out0_C_3
  rw [View.read_writes_eq_canon _ _ _ (cover0_C_3 c i arg1 harg1 arg2 harg2 arg3 harg3 arg4 harg4 arg5 harg5 arg6 harg6 arg7 harg7 arg8 harg8 hc0 hc1 x0 x1 xs0 xs1 xs2)]
  unfold kernelRun0_C
  dsimp only
  sl_unfold_words
  rw [View.canon_cons_unit_zero (S := S1x128) hz]
  simp only [↓ View.readCov_cons_toLoadRect, View.readAt_eq_ld, harg1.read_unread, harg2.read_unread, harg6.read_unread, harg7.read_unread, harg8.read_unread,
    View.ld_unit_zero (S := S4096x128) hz, View.ld_unit_zero (S := S1x128) hz]
  rfl

/-- The last point copies accumulator row 2, as it has just left it, into output 4. -/
theorem out_C_4 (c : Dev nD) (i : grid0.Coords) (arg1 : Memref sig .tc .vmem S4096x128 .f32) (harg1 : arg1.IsWhole) (arg2 : Memref sig .tc .vmem S4096x128 .i32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : cond0_1 i)
    (x0 : Vec F S4096x128 .f32) (x1 : Vec F S4096x128 .i32) (xs0 : Vec F S1x128 .f32) (xs1 : Vec F S1x128 .f32) (xs2 : Vec F S1x128 .f32) :
    out0_C_4 c i arg1 harg1 arg2 harg2 arg3 harg3 arg4 harg4 arg5 harg5 arg6 harg6 arg7 harg7 arg8 harg8 hc0 hc1 x0 x1 xs0 xs1 xs2 = accStep x0 x1 xs2 := by
  unfold out0_C_4
  rw [View.read_writes_eq_canon _ _ _ (cover0_C_4 c i arg1 harg1 arg2 harg2 arg3 harg3 arg4 harg4 arg5 harg5 arg6 harg6 arg7 harg7 arg8 harg8 hc0 hc1 x0 x1 xs0 xs1 xs2)]
  unfold kernelRun0_C
  dsimp only
  sl_unfold_words
  rw [View.canon_cons_unit_zero (S := S1x128) hz]
  simp only [↓ View.readCov_cons_toLoadRect, View.readAt_eq_ld, harg1.read_unread, harg2.read_unread, harg6.read_unread, harg7.read_unread, harg8.read_unread,
    View.ld_unit_zero (S := S4096x128) hz, View.ld_unit_zero (S := S1x128) hz]
  rfl

end Cert.KernelIdeal.Hist

end
-- ==== Proof.KAccum.lean ====
/-
  The frame's point-by-point contents are the three recursions: by induction on the point, each
  case's rows being their chains of updates over what the point before left; and the last point's
  outputs are the rows it has just left.
-/
import proofs.«117713_j17343077941754_1_alg».proof.Proof.Gen.KernelIdeal.Frame
import proofs.«117713_j17343077941754_1_alg».proof.Proof.KAt
import proofs.«117713_j17343077941754_1_alg».proof.Proof.KPieces

noncomputable section

namespace Cert.KernelIdeal.Hist

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ)

/-- The first point: the three rows are their chains over the zero row. -/
private theorem step_A (c : Dev nD) (t : Fin cfg0.N) (h0 : t.val % 64 = 0) (h1 : ¬t.val % 64 = 63) :
    (outsAt0 m c t.val t.isLt).2.2.2
      = (cntStep (blkC m c t) zeroRow, confStep (blkC m c t) zeroRow, accStep (blkC m c t) (blkQ m c t) zeroRow) := by
  rw [outsAt0_A m c t h0 h1]
  dsimp only
  rw [sout_A_0 (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t),
    sout_A_1 (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t),
    sout_A_2 (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t)]

/-- A middle point: the three rows are their chains over what the point before left. -/
private theorem step_B (c : Dev nD) (t : Fin cfg0.N) (h0 : ¬t.val % 64 = 0) (h1 : ¬t.val % 64 = 63)
    (p : ℕ) (hp : p < cfg0.N) (hpt : t.val - 1 = p) (a b d : Vec F S1x128 .f32)
    (ih : (outsAt0 m c p hp).2.2.2 = (a, b, d)) :
    (outsAt0 m c t.val t.isLt).2.2.2
      = (cntStep (blkC m c t) a, confStep (blkC m c t) b, accStep (blkC m c t) (blkQ m c t) d) := by
  subst hpt
  rw [outsAt0_B m c t h0 h1]
  dsimp only
  rw [ih]
  dsimp only
  rw [sout_B_0 (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) a b d,
    sout_B_1 (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) a b d,
    sout_B_2 (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) a b d]

/-- The last point: the three rows are their chains over what the point before left, and the three
    outputs are copies of them. -/
private theorem step_C (c : Dev nD) (t : Fin cfg0.N) (h0 : ¬t.val % 64 = 0) (h1 : t.val % 64 = 63)
    (p : ℕ) (hp : p < cfg0.N) (hpt : t.val - 1 = p) (a b d : Vec F S1x128 .f32)
    (ih : (outsAt0 m c p hp).2.2.2 = (a, b, d)) :
    outsAt0 m c t.val t.isLt
      = (cntStep (blkC m c t) a, confStep (blkC m c t) b, accStep (blkC m c t) (blkQ m c t) d,
          cntStep (blkC m c t) a, confStep (blkC m c t) b, accStep (blkC m c t) (blkQ m c t) d) := by
  subst hpt
  rw [outsAt0_C m c t h0 h1]
  rw [ih]
  dsimp only
  rw [out_C_2 (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) a b d,
    out_C_3 (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) a b d,
    out_C_4 (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) a b d,
    sout_C_0 (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) a b d,
    sout_C_1 (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) a b d,
    sout_C_2 (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) a b d]

/-- After every point the three accumulator rows are the three recursions. -/
theorem scratch_eq (c : Dev nD) : ∀ (n : ℕ) (h : n < cfg0.N),
    (outsAt0 m c n h).2.2.2 = (cntAt m c n h, confAt m c n h, accAt m c n h) := by
  intro n
  induction n with
  | zero =>
    intro h
    rw [cntAt, confAt, accAt]
    exact step_A m c ⟨0, h⟩ (Nat.zero_mod 64) (by decide : ¬0 % 64 = 63)
  | succ n ih =>
    intro h
    have hN : cfg0.N = 64 := N_0
    have h0 : ¬(⟨n + 1, h⟩ : Fin cfg0.N).val % 64 = 0 := by dsimp only; omega
    rw [cntAt, confAt, accAt]
    by_cases h1 : (⟨n + 1, h⟩ : Fin cfg0.N).val % 64 = 63
    · exact congrArg (fun x => x.2.2.2) (step_C m c ⟨n + 1, h⟩ h0 h1 n (Nat.lt_of_succ_lt h) (Nat.add_sub_cancel n 1)
        (cntAt m c n (Nat.lt_of_succ_lt h)) (confAt m c n (Nat.lt_of_succ_lt h)) (accAt m c n (Nat.lt_of_succ_lt h))
        (ih (Nat.lt_of_succ_lt h)))
    · exact step_B m c ⟨n + 1, h⟩ h0 h1 n (Nat.lt_of_succ_lt h) (Nat.add_sub_cancel n 1)
        (cntAt m c n (Nat.lt_of_succ_lt h)) (confAt m c n (Nat.lt_of_succ_lt h)) (accAt m c n (Nat.lt_of_succ_lt h))
        (ih (Nat.lt_of_succ_lt h))

/-- A point after the first that is the last of its run of 64: outputs and rows alike are the three
    recursions. -/
private theorem last_eq (c : Dev nD) (n : ℕ) (h : n + 1 < cfg0.N) (h1 : (n + 1) % 64 = 63) :
    outsAt0 m c (n + 1) h
      = (cntAt m c (n + 1) h, confAt m c (n + 1) h, accAt m c (n + 1) h,
          cntAt m c (n + 1) h, confAt m c (n + 1) h, accAt m c (n + 1) h) := by
  have hN : cfg0.N = 64 := N_0
  have h0 : ¬(⟨n + 1, h⟩ : Fin cfg0.N).val % 64 = 0 := by dsimp only; omega
  rw [cntAt, confAt, accAt]
  exact step_C m c ⟨n + 1, h⟩ h0 h1 n (Nat.lt_of_succ_lt h) (Nat.add_sub_cancel n 1)
    (cntAt m c n (Nat.lt_of_succ_lt h)) (confAt m c n (Nat.lt_of_succ_lt h)) (accAt m c n (Nat.lt_of_succ_lt h))
    (scratch_eq m c n (Nat.lt_of_succ_lt h))

/-- After the last point the three outputs' staging buffers hold the three rows. -/
theorem outs_last (c : Dev nD) (h : 63 < cfg0.N) :
    (outsAt0 m c 63 h).1 = cntAt m c 63 h ∧ (outsAt0 m c 63 h).2.1 = confAt m c 63 h
      ∧ (outsAt0 m c 63 h).2.2.1 = accAt m c 63 h := by
  have e : outsAt0 m c 63 h
      = (cntAt m c 63 h, confAt m c 63 h, accAt m c 63 h, cntAt m c 63 h, confAt m c 63 h, accAt m c 63 h) :=
    last_eq m c 62 h (by decide : (62 + 1) % 64 = 63)
  rw [e]
  exact ⟨rfl, rfl, rfl⟩

end Cert.KernelIdeal.Hist

end
-- ==== Proof.KArr.lean ====
/-
  The three output arrays after the region.  Each output window has ONE block, the whole `1 × 128`
  array, and is written back at the last grid point only; so each array ends holding what the last
  point left in the window's staging buffer, which is the accumulator row after the last point.
-/
import proofs.«117713_j17343077941754_1_alg».proof.Proof.Gen.KernelIdeal.Frame
import proofs.«117713_j17343077941754_1_alg».proof.Proof.KAt
import proofs.«117713_j17343077941754_1_alg».proof.Proof.KAccum
import Idealize.ShloMosaic.Lib.Pipeline.Value

noncomputable section

namespace Cert.KernelIdeal.Hist

open Idealize.ShloMosaic Idealize.ShloMosaic.TcCoe Idealize.SL.Sem
open Idealize.ShloMosaic.Pipeline (Dat)
open Cert.KernelIdeal Cert.KernelIdeal.Gen

variable {F : FTy → Type} [FloatOps F]
variable (m : (ℓ : Loc nD τ sig) → Buf (Elt F) ℓ)

/-- The grid has a sixty-fourth point. -/
theorem h63 : 63 < cfg0.N := by rw [show cfg0.N = 64 from N_0]; decide

/-- The count row after the last point, as contents of the first result array. -/
abbrev resCnt (c : Dev nD) : Buf (Elt F) ((c : Thread nD τ).loc main_v2_0) := cntAt m c 63 h63
/-- The confidence-sum row after the last point, as contents of the second result array. -/
abbrev resConf (c : Dev nD) : Buf (Elt F) ((c : Thread nD τ).loc main_v2_1) := confAt m c 63 h63
/-- The correctness-sum row after the last point, as contents of the third result array. -/
abbrev resAcc (c : Dev nD) : Buf (Elt F) ((c : Thread nD τ).loc main_v2_2) := accAt m c 63 h63

/-- What window 2's staging buffer holds after the last point: the row after the last point. -/
private theorem last2 (c : Dev nD) (n : ℕ) (hn : n < cfg0.N) (e : n = 63) :
    (outsAt0 m c n hn).1 = cntAt m c 63 h63 := by
  subst e; exact (outs_last m c hn).1

/-- The one write-back of window 2, at the last point, writes the row: block (0, 0) of the 1 × 128 array read
    through zero offsets is the array. -/
theorem flushed_eq2 (c : Dev nD) (t : Fin cfg0.N) (hf : (cfg0.win 2).flush t = true) :
    (dats m 0 c).flushed 2 t = ((cfg0.win 2).blk t).view.read (Elt F) (resCnt m c) := by
  have hN : cfg0.N = 64 := N_0
  have h3 : t.val = 63 := by have := (flush0_2 t).mp hf; have := t.isLt; omega
  have e : (dats m 0 c).after 2 t = cntAt m c 63 h63 := by
    rw [after0_2]; exact last2 m c t.val t.isLt h3
  obtain rfl : t = ⟨63, h63⟩ := Fin.ext h3
  show (cfg0.win 2).cut (grid0.coords ⟨63, h63⟩) ((dats m 0 c).after 2 ⟨63, h63⟩) = _
  rw [e]
  have hz' : (fun a => win0_2.index ⟨63, h63⟩ a * main_v2_0.ty.shape.size a) = fun _ => 0 :=
    funext fun a => by fin_cases a <;> decide +kernel
  exact (Memref.read_access_unit_zero (Elt F) main_v2_0 hz' (fun a => by rw [congrFun hz' a]; simp) (resCnt m c)).symm

theorem arr_cnt (c : Dev nD) : (dats m 0 c).arrAt 2 cfg0.N = resCnt m c :=
  (dats m 0 c).arrAt_eq_of_cover 2 (resCnt m c) (flushed_eq2 m c) fun i =>
    ⟨⟨63, h63⟩, (flush0_2 _).mpr rfl, by
      show i ∈ ((View.whole main_v2_0).slice (win0_2.rect ⟨63, h63⟩)).set
      rw [View.set_slice_whole, Rect.mem_set_unit]
      intro a
      have h0 : (i 0 : Nat) < 1 := (i 0).isLt
      have h1 : (i 1 : Nat) < 128 := (i 1).isLt
      match a with
      | ⟨0, _⟩ => show win0_2.index ⟨63, h63⟩ 0 * win0_2.size 0 ≤ (i 0 : Nat) ∧ (i 0 : Nat) < win0_2.index ⟨63, h63⟩ 0 * win0_2.size 0 + win0_2.xsize (grid0.coords ⟨63, h63⟩) 0
                  rw [show win0_2.index ⟨63, h63⟩ 0 * win0_2.size 0 = 0 from by decide +kernel, show win0_2.xsize (grid0.coords ⟨63, h63⟩) 0 = 1 from by decide +kernel]; omega
      | ⟨1, _⟩ => show win0_2.index ⟨63, h63⟩ 1 * win0_2.size 1 ≤ (i 1 : Nat) ∧ (i 1 : Nat) < win0_2.index ⟨63, h63⟩ 1 * win0_2.size 1 + win0_2.xsize (grid0.coords ⟨63, h63⟩) 1
                  rw [show win0_2.index ⟨63, h63⟩ 1 * win0_2.size 1 = 0 from by decide +kernel, show win0_2.xsize (grid0.coords ⟨63, h63⟩) 1 = 128 from by decide +kernel]; omega⟩

/-- What window 3's staging buffer holds after the last point: the row after the last point. -/
private theorem last3 (c : Dev nD) (n : ℕ) (hn : n < cfg0.N) (e : n = 63) :
    (outsAt0 m c n hn).2.1 = confAt m c 63 h63 := by
  subst e; exact (outs_last m c hn).2.1

/-- The one write-back of window 3, at the last point, writes the row: block (0, 0) of the 1 × 128 array read
    through zero offsets is the array. -/
theorem flushed_eq3 (c : Dev nD) (t : Fin cfg0.N) (hf : (cfg0.win 3).flush t = true) :
    (dats m 0 c).flushed 3 t = ((cfg0.win 3).blk t).view.read (Elt F) (resConf m c) := by
  have hN : cfg0.N = 64 := N_0
  have h3 : t.val = 63 := by have := (flush0_3 t).mp hf; have := t.isLt; omega
  have e : (dats m 0 c).after 3 t = confAt m c 63 h63 := by
    rw [after0_3]; exact last3 m c t.val t.isLt h3
  obtain rfl : t = ⟨63, h63⟩ := Fin.ext h3
  show (cfg0.win 3).cut (grid0.coords ⟨63, h63⟩) ((dats m 0 c).after 3 ⟨63, h63⟩) = _
  rw [e]
  have hz' : (fun a => win0_3.index ⟨63, h63⟩ a * main_v2_1.ty.shape.size a) = fun _ => 0 :=
    funext fun a => by fin_cases a <;> decide +kernel
  exact (Memref.read_access_unit_zero (Elt F) main_v2_1 hz' (fun a => by rw [congrFun hz' a]; simp) (resConf m c)).symm

theorem arr_conf (c : Dev nD) : (dats m 0 c).arrAt 3 cfg0.N = resConf m c :=
  (dats m 0 c).arrAt_eq_of_cover 3 (resConf m c) (flushed_eq3 m c) fun i =>
    ⟨⟨63, h63⟩, (flush0_3 _).mpr rfl, by
      show i ∈ ((View.whole main_v2_1).slice (win0_3.rect ⟨63, h63⟩)).set
      rw [View.set_slice_whole, Rect.mem_set_unit]
      intro a
      have h0 : (i 0 : Nat) < 1 := (i 0).isLt
      have h1 : (i 1 : Nat) < 128 := (i 1).isLt
      match a with
      | ⟨0, _⟩ => show win0_3.index ⟨63, h63⟩ 0 * win0_3.size 0 ≤ (i 0 : Nat) ∧ (i 0 : Nat) < win0_3.index ⟨63, h63⟩ 0 * win0_3.size 0 + win0_3.xsize (grid0.coords ⟨63, h63⟩) 0
                  rw [show win0_3.index ⟨63, h63⟩ 0 * win0_3.size 0 = 0 from by decide +kernel, show win0_3.xsize (grid0.coords ⟨63, h63⟩) 0 = 1 from by decide +kernel]; omega
      | ⟨1, _⟩ => show win0_3.index ⟨63, h63⟩ 1 * win0_3.size 1 ≤ (i 1 : Nat) ∧ (i 1 : Nat) < win0_3.index ⟨63, h63⟩ 1 * win0_3.size 1 + win0_3.xsize (grid0.coords ⟨63, h63⟩) 1
                  rw [show win0_3.index ⟨63, h63⟩ 1 * win0_3.size 1 = 0 from by decide +kernel, show win0_3.xsize (grid0.coords ⟨63, h63⟩) 1 = 128 from by decide +kernel]; omega⟩

/-- What window 4's staging buffer holds after the last point: the row after the last point. -/
private theorem last4 (c : Dev nD) (n : ℕ) (hn : n < cfg0.N) (e : n = 63) :
    (outsAt0 m c n hn).2.2.1 = accAt m c 63 h63 := by
  subst e; exact (outs_last m c hn).2.2

/-- The one write-back of window 4, at the last point, writes the row: block (0, 0) of the 1 × 128 array read
    through zero offsets is the array. -/
theorem flushed_eq4 (c : Dev nD) (t : Fin cfg0.N) (hf : (cfg0.win 4).flush t = true) :
    (dats m 0 c).flushed 4 t = ((cfg0.win 4).blk t).view.read (Elt F) (resAcc m c) := by
  have hN : cfg0.N = 64 := N_0
  have h3 : t.val = 63 := by have := (flush0_4 t).mp hf; have := t.isLt; omega
  have e : (dats m 0 c).after 4 t = accAt m c 63 h63 := by
    rw [after0_4]; exact last4 m c t.val t.isLt h3
  obtain rfl : t = ⟨63, h63⟩ := Fin.ext h3
  show (cfg0.win 4).cut (grid0.coords ⟨63, h63⟩) ((dats m 0 c).after 4 ⟨63, h63⟩) = _
  rw [e]
  have hz' : (fun a => win0_4.index ⟨63, h63⟩ a * main_v2_2.ty.shape.size a) = fun _ => 0 :=
    funext fun a => by fin_cases a <;> decide +kernel
  exact (Memref.read_access_unit_zero (Elt F) main_v2_2 hz' (fun a => by rw [congrFun hz' a]; simp) (resAcc m c)).symm

theorem arr_acc (c : Dev nD) : (dats m 0 c).arrAt 4 cfg0.N = resAcc m c :=
  (dats m 0 c).arrAt_eq_of_cover 4 (resAcc m c) (flushed_eq4 m c) fun i =>
    ⟨⟨63, h63⟩, (flush0_4 _).mpr rfl, by
      show i ∈ ((View.whole main_v2_2).slice (win0_4.rect ⟨63, h63⟩)).set
      rw [View.set_slice_whole, Rect.mem_set_unit]
      intro a
      have h0 : (i 0 : Nat) < 1 := (i 0).isLt
      have h1 : (i 1 : Nat) < 128 := (i 1).isLt
      match a with
      | ⟨0, _⟩ => show win0_4.index ⟨63, h63⟩ 0 * win0_4.size 0 ≤ (i 0 : Nat) ∧ (i 0 : Nat) < win0_4.index ⟨63, h63⟩ 0 * win0_4.size 0 + win0_4.xsize (grid0.coords ⟨63, h63⟩) 0
                  rw [show win0_4.index ⟨63, h63⟩ 0 * win0_4.size 0 = 0 from by decide +kernel, show win0_4.xsize (grid0.coords ⟨63, h63⟩) 0 = 1 from by decide +kernel]; omega
      | ⟨1, _⟩ => show win0_4.index ⟨63, h63⟩ 1 * win0_4.size 1 ≤ (i 1 : Nat) ∧ (i 1 : Nat) < win0_4.index ⟨63, h63⟩ 1 * win0_4.size 1 + win0_4.xsize (grid0.coords ⟨63, h63⟩) 1
                  rw [show win0_4.index ⟨63, h63⟩ 1 * win0_4.size 1 = 0 from by decide +kernel, show win0_4.xsize (grid0.coords ⟨63, h63⟩) 1 = 128 from by decide +kernel]; omega⟩

end Cert.KernelIdeal.Hist

end
-- ==== Proof.Tail.lean ====
/-
  The scalar both programs compute from the three histograms: with `n = max(count, 1)`,
  `∑_b [count_b > 0] · |conf_b / n_b - acc_b / n_b| · (count_b / 2^25)`, as one function of the three
  ten-entry rows.  Both programs spell it with the same host operations, so it is never opened.
-/
import Idealize.ShloMosaic.PureOps.Ideal

noncomputable section

namespace Cert.Hist

open Idealize.ShloMosaic

abbrev T_ : Shape := ⟨0, ![]⟩
abbrev T10 : Shape := ⟨1, ![10]⟩
abbrev T1 : Shape := ⟨1, ![1]⟩

variable {F : FTy → Type} [FloatOps F]

/-- The expected calibration error from the per-bin count, confidence sum and correctness sum. -/
def ece (hb : T_.BroadcastsInDim T10 (![] : Fin 0 → Fin T10.rank)) (hr : T10.ReducesTo [0] T_) (hz : 0 < T_.numel)
    (hs : T_.ShapeCasts T1) (cnt conf acc : FVec F T10 .f32) : FVec F T1 .f32 :=
  shapeCast T1 (Host.reduceAdd
    (select (cmpf .ogt cnt (broadcastInDim T10 ![] hb (constant T_ .f32 0x00000000#32)))
      (mulf
        (Host.absf (subf
          (Host.divf conf (maximumf cnt (broadcastInDim T10 ![] hb (constant T_ .f32 0x3F800000#32))))
          (Host.divf acc (maximumf cnt (broadcastInDim T10 ![] hb (constant T_ .f32 0x3F800000#32))))))
        (Host.divf cnt (broadcastInDim T10 ![] hb (constant T_ .f32 0x4C000000#32))))
      (broadcastInDim T10 ![] hb (constant T_ .f32 0x00000000#32)))
    (constant T_ .f32 0x00000000#32) hr hz) hs

end Cert.Hist

end
-- ==== Proof.KFinal.lean ====
/-
  The kernel's program, run: its result is the calibration error of the first ten lanes of the
  three accumulator rows after the last grid point.

  After the region the host slices lanes `0 … 9` out of each `1 × 128` result array and applies the
  twenty operations of the calibration error to the three ten-entry rows.  The operations are read
  one stretch at a time (the lines before the outlined `where`, the `where`, the two lines after it),
  each as a function of what the stretch before left.
-/
import proofs.«117713_j17343077941754_1_alg».proof.Proof.Gen.KernelIdeal.Frame
import proofs.«117713_j17343077941754_1_alg».proof.Proof.KArr
import proofs.«117713_j17343077941754_1_alg».proof.Proof.Tail
import Idealize.ShloMosaic.Lib.StableHlo.Run
import Idealize.ShloMosaic.Lib.Tactic

noncomputable section

namespace Cert.KernelIdeal.Hist

open Idealize.ShloMosaic Idealize.ShloMosaic.TcCoe Idealize.SL.Sem Idealize.ShloMosaic.StableHlo
open Idealize.ShloMosaic.Pipeline (Dat)
open Cert.KernelIdeal Cert.KernelIdeal.Gen Cert.Hist

variable {F : FTy → Type} [FloatOps F]

/-- Lanes `0 … 9` of a `1 × 128` row, as a ten-entry vector. -/
def row10 (X : FVec F S1x128 .f32) : FVec F S10 .f32 :=
  shapeCast S10 (extractStridedSlice S1x10 ![0, 0] X slices_S1x128_S1x10_0_0) shapeCasts_S1x10_S10

section Tail
variable (W : Valuation τ sig (Elt F))

/-- The first stretch leaves the test `count > 0` … -/
theorem tail1_test :
    StableHlo.after hostOps1 W (Proc.devRef .tc main_v18)
      = cmpf .ogt (row10 (W (Proc.devRef .tc main_v2_0))) (broadcastInDim S10 ![] bcast_S_S10 (constant S_ .f32 0x00000000#32)) := by
  after_results_simp <;> rfl

/-- … the product `|conf / n - acc / n| · (count / 2^25)` with `n = max(count, 1)` … -/
theorem tail1_prod :
    StableHlo.after hostOps1 W (Proc.devRef .tc main_v19)
      = mulf
          (Host.absf (subf
            (Host.divf (row10 (W (Proc.devRef .tc main_v2_1)))
              (maximumf (row10 (W (Proc.devRef .tc main_v2_0))) (broadcastInDim S10 ![] bcast_S_S10 (constant S_ .f32 0x3F800000#32))))
            (Host.divf (row10 (W (Proc.devRef .tc main_v2_2)))
              (maximumf (row10 (W (Proc.devRef .tc main_v2_0))) (broadcastInDim S10 ![] bcast_S_S10 (constant S_ .f32 0x3F800000#32))))))
          (Host.divf (row10 (W (Proc.devRef .tc main_v2_0))) (broadcastInDim S10 ![] bcast_S_S10 (constant S_ .f32 0x4C000000#32))) := by
  after_results_simp <;> rfl

/-- … and the zero the `where` falls back to. -/
theorem tail1_zero :
    StableHlo.after hostOps1 W (Proc.devRef .tc main_cst_2) = constant S_ .f32 0x00000000#32 := by
  after_results_simp <;> rfl

/-- The outlined `where` selects between what it is handed. -/
theorem tail2 :
    StableHlo.after hostOps1_1 W (Proc.devRef .tc main_v20)
      = select (W (Proc.devRef .tc main_v18)) (W (Proc.devRef .tc main_v19))
          (broadcastInDim S10 ![] bcast_S_S10 (W (Proc.devRef .tc main_cst_2))) := by
  after_results_simp <;> rfl

/-- The last stretch sums the ten entries and reshapes the sum to one entry. -/
theorem tail3 :
    StableHlo.after hostOps1_2 W (Proc.devRef .tc main_v22)
      = shapeCast S1 (Host.reduceAdd (W (Proc.devRef .tc main_v20)) (constant S_ .f32 0x00000000#32) reducesTo_S10_S_d0 h_S_) shapeCasts_S_S1 := by
  after_results_simp <;> rfl

/-- The three stretches after the region compute the calibration error of the three rows' first ten lanes. -/
theorem tail_after :
    StableHlo.after (List.flatten [hostOps1, hostOps1_1, hostOps1_2]) W (Proc.devRef .tc main_v22)
      = ece (F := F) bcast_S_S10 reducesTo_S10_S_d0 h_S_ shapeCasts_S_S1
          (row10 (W (Proc.devRef .tc main_v2_0))) (row10 (W (Proc.devRef .tc main_v2_1))) (row10 (W (Proc.devRef .tc main_v2_2))) := by
  rw [List.flatten_cons, List.flatten_cons, List.flatten_cons, List.flatten_nil, List.append_nil,
    StableHlo.after_append, StableHlo.after_append, tail3, tail2, tail1_test, tail1_prod, tail1_zero]
  rfl

end Tail

variable (m : (ℓ : Loc nD τ sig) → Buf (Elt F) ℓ) (ρ : Dev nD → PrngReg)

/-- The kernel program's result from the three rows after the last point. -/
def kres (c : Dev nD) : Buf (Elt F) ((c : Thread nD τ).loc main_v22) :=
  ece (F := F) bcast_S_S10 reducesTo_S10_S_d0 h_S_ shapeCasts_S_S1
    (row10 (resCnt m c)) (row10 (resConf m c)) (row10 (resAcc m c))

/-- What the lines after the region leave in the result buffer. -/
theorem tail_eq (c : Dev nD) :
    Pipeline.afterTail₀ cfgs (dats m) 0 (V0 m) [hostOps1, hostOps1_1, hostOps1_2] c main_v22 = kres m c := by
  refine (tail_after (Pipeline.withArrays (cfgs 0).spec c (V0 m c) fun w => (dats m 0 c).arrAt w (cfgs 0).N)).trans ?_
  have e2 : Pipeline.withArrays (cfgs 0).spec c (V0 m c) (fun w => (dats m 0 c).arrAt w (cfgs 0).N) (Proc.devRef .tc main_v2_0)
      = resCnt m c := (Pipeline.withArrays_arr spec0 launch0.win.arr_inj c _ _ 2).trans (arr_cnt m c)
  have e3 : Pipeline.withArrays (cfgs 0).spec c (V0 m c) (fun w => (dats m 0 c).arrAt w (cfgs 0).N) (Proc.devRef .tc main_v2_1)
      = resConf m c := (Pipeline.withArrays_arr spec0 launch0.win.arr_inj c _ _ 3).trans (arr_conf m c)
  have e4 : Pipeline.withArrays (cfgs 0).spec c (V0 m c) (fun w => (dats m 0 c).arrAt w (cfgs 0).N) (Proc.devRef .tc main_v2_2)
      = resAcc m c := (Pipeline.withArrays_arr spec0 launch0.win.arr_inj c _ _ 4).trans (arr_acc m c)
  rw [e2, e3, e4]
  rfl

/-- The kernel's program runs, ends with its result at the calibration error of the three rows, and keeps its arguments. -/
theorem run : θ_run defs (onTc (τ := τ) (main (F := F))) ⟨m, fun _ => 0, ρ⟩ (fun r => ∀ c : Dev nD,
      r.2.mem ((c.tc : Thread nD τ).loc main_v22) = kres m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
      ⟨((h c).2 main_v22 (Pipeline.mem_restRefs_of main_v22 (by decide) (by decide))).trans (tail_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KernelIdeal.Hist

end
-- ==== Proof.Elem.lean ====
/-
  One sample of the calibration histogram, on the extended reals.

  A confidence `c` is VALID when `0 < c ≤ 1`; its weight is `1` then and `0` otherwise.  Its bin is
  `⌈10 c⌉ - 1` clamped to `0 … 9`.  The kernel clamps the float `⌈10 c⌉ - 1` and then converts it to an
  integer (`kBin`); the reference converts `⌈10 c⌉` first, subtracts one on 32-bit words and clamps the
  words (`rBin`).  On a valid confidence `⌈10 c⌉` is one of `1 … 10` and the two agree; on an invalid one
  they may differ (a huge negative `10 c` saturates the conversion and the subtraction wraps), but the
  weight is `0` there, so no sum sees the difference.

  `kT0 b c`, `kT1 b c`, `kT2 b c q` are the kernel's three masked terms of bin `b` (indicator of the bin
  times the weight; that times the confidence; that times the correctness word `q` read as a signed
  integer).  Each equals the reference's update value where the reference's bin is `b`, and `0` elsewhere:
  `0 · x = 0` and `1 · x = x` hold for every extended real, so no finiteness is used.
-/
import Idealize.ShloMosaic.PureOps.Ideal

noncomputable section

namespace Cert.Hist

open Idealize.ShloMosaic

/-- The kernel's bin of a confidence: `⌈10 c⌉ - 1` clamped to `[0, 9]` as a float, then converted. -/
def kBin (c : EReal) : BitVec 32 :=
  Ideal.fptosi 32 (min (Ideal.ofBits .f32 0x41100000#32)
    (max (Ideal.ofBits .f32 0x00000000#32)
      (Ideal.liftRound Int.ceil (c * Ideal.ofBits .f32 0x41200000#32) - Ideal.ofBits .f32 0x3F800000#32)))

/-- The reference's bin: `⌈10 c⌉` converted, one subtracted on words, clamped to `[0, 9]` on signed words. -/
def rBin (c : EReal) : BitVec 32 :=
  IntOp.minsi 9#32 (IntOp.maxsi 0#32
    (IntOp.subi (Ideal.fptosi 32 (Ideal.liftRound Int.ceil (c * Ideal.ofBits .f32 0x41200000#32))) 1#32))

/-- The validity bit `0 < c ∧ c ≤ 1`. -/
def vbit (c : EReal) : BitVec 1 :=
  IntOp.andi (Ideal.cmp .ogt c (Ideal.ofBits .f32 0x00000000#32)) (Ideal.cmp .ole c (Ideal.ofBits .f32 0x3F800000#32))

/-- The weight as the kernel spells it: the bit widened to a word, read signed. -/
def kW (c : EReal) : EReal := ((((vbit c).setWidth 32).toInt : ℝ) : EReal)

/-- The weight as the reference spells it: the bit read unsigned. -/
def rW (c : EReal) : EReal := (((vbit c).toNat : ℝ) : EReal)

/-- The indicator that the word `k` is `b`, as the kernel spells it. -/
def ind (b k : BitVec 32) : EReal := ((((IntOp.cmpi .eq k b).setWidth 32).toInt : ℝ) : EReal)

/-- The kernel's count term of bin `b`. -/
def kT0 (b : BitVec 32) (c : EReal) : EReal := ind b (kBin c) * kW c
/-- The kernel's confidence term of bin `b`. -/
def kT1 (b : BitVec 32) (c : EReal) : EReal := kT0 b c * c
/-- The kernel's correctness term of bin `b`. -/
def kT2 (b : BitVec 32) (c : EReal) (q : BitVec 32) : EReal := kT0 b c * ((q.toInt : ℝ) : EReal)
/-- The four float words the bins and the validity test spell, as the reals they denote. -/
private theorem c0 : Ideal.ofBits .f32 0x00000000#32 = 0 := by
  simp [Ideal.ofBits, Ideal.ieee]

private theorem c1 : Ideal.ofBits .f32 0x3F800000#32 = 1 := by
  simp [Ideal.ofBits, Ideal.ieee, -EReal.coe_mul]; norm_num

private theorem c9 : Ideal.ofBits .f32 0x41100000#32 = ((9 : ℝ) : EReal) := by
  simp [Ideal.ofBits, Ideal.ieee, -EReal.coe_mul]; norm_num

private theorem c10 : Ideal.ofBits .f32 0x41200000#32 = ((10 : ℝ) : EReal) := by
  simp [Ideal.ofBits, Ideal.ieee, -EReal.coe_mul]; norm_num

/-- The validity bit is the truth value of `0 < c ∧ c ≤ 1`. -/
private theorem vbit_eq (c : EReal) : vbit c = BitVec.ofBool (decide (0 < c ∧ c ≤ 1)) := by
  unfold vbit
  rw [c0, c1]
  simp only [Ideal.cmp, IntOp.andi]
  by_cases h0 : 0 < c <;> by_cases h1 : c ≤ 1 <;> simp [h0, h1]

theorem kW_eq (c : EReal) : kW c = if 0 < c ∧ c ≤ 1 then 1 else 0 := by
  rw [kW, vbit_eq]
  by_cases h : 0 < c ∧ c ≤ 1 <;> simp [h]

theorem rW_eq (c : EReal) : rW c = if 0 < c ∧ c ≤ 1 then 1 else 0 := by
  rw [rW, vbit_eq]
  by_cases h : 0 < c ∧ c ≤ 1 <;> simp [h]

theorem ind_eq (b k : BitVec 32) : ind b k = if k = b then 1 else 0 := by
  unfold ind IntOp.cmpi
  by_cases h : k = b
  · simp [h]
  · have hb : (k == b) = false := beq_eq_false_iff_ne.mpr h
    simp [h, hb]

/-- Clamping a signed word to `[0, 9]` clamps its signed value. -/
private theorem clampI (x : BitVec 32) :
    (IntOp.minsi 9#32 (IntOp.maxsi 0#32 x)).toInt = max 0 (min 9 x.toInt) := by
  have h0 : (0#32 : BitVec 32).toInt = 0 := by decide
  have h9 : (9#32 : BitVec 32).toInt = 9 := by decide
  unfold IntOp.minsi IntOp.maxsi
  simp only [BitVec.slt, h0, h9]
  split_ifs <;> simp_all <;> omega

/-- The reference's bin is one of `0 … 9`. -/
theorem rBin_range (c : EReal) : 0 ≤ (rBin c).toInt ∧ (rBin c).toInt ≤ 9 := by
  unfold rBin
  rw [clampI]
  omega

/-- Converting an integer-valued real inside the 32-bit signed range gives that integer's word. -/
private theorem fptosi_int (m : ℤ) (hlo : -(2 ^ 31) ≤ m) (hhi : m ≤ 2 ^ 31 - 1) :
    Ideal.fptosi 32 (((m : ℝ)) : EReal) = BitVec.ofInt 32 m := by
  unfold Ideal.fptosi
  rw [Ideal.toIntClamped_coe]
  congr 1
  simp only [Int.floor_intCast, Int.ceil_intCast, ite_self]
  norm_num
  omega

/-- A word made from an integer inside the 32-bit signed range reads back as that integer. -/
private theorem toInt_small (m : ℤ) (hlo : -(2 ^ 31) ≤ m) (hhi : m ≤ 2 ^ 31 - 1) :
    (BitVec.ofInt 32 m).toInt = m := by
  rw [BitVec.toInt_ofInt]
  apply Int.bmod_eq_of_le <;> omega

/-- For `0 < r ≤ 1` the ceiling of `10 r` is one of `1 … 10`. -/
private theorem ceil_range (r : ℝ) (h0 : 0 < r) (h1 : r ≤ 1) : 1 ≤ ⌈r * 10⌉ ∧ ⌈r * 10⌉ ≤ 10 := by
  constructor
  · have : 0 < ⌈r * 10⌉ := Int.ceil_pos.mpr (by positivity)
    omega
  · apply Int.ceil_le.mpr
    push_cast
    linarith

/-- On a valid confidence the two bins are one word. -/
theorem kBin_eq_rBin (c : EReal) (h0 : 0 < c) (h1 : c ≤ 1) : kBin c = rBin c := by
  induction c using EReal.rec with
  | bot => exact absurd h0 (by simp)
  | top =>
    have h : (1 : EReal) < ⊤ := by exact_mod_cast EReal.coe_lt_top 1
    exact absurd h1 (not_le.mpr h)
  | coe r =>
    have hr0 : 0 < r := by exact_mod_cast h0
    have hr1 : r ≤ 1 := by exact_mod_cast h1
    obtain ⟨hn1, hn10⟩ := ceil_range r hr0 hr1
    have hmul : (r : EReal) * Ideal.ofBits .f32 0x41200000#32 = ((r * 10 : ℝ) : EReal) := by
      rw [c10, EReal.coe_mul]
    apply BitVec.eq_of_toInt_eq
    have hk : (kBin (r : EReal)).toInt = ⌈r * 10⌉ - 1 := by
      unfold kBin
      rw [hmul, c0, c1, c9, Ideal.liftRound_coe]
      have e : min ((9 : ℝ) : EReal) (max 0 ((((⌈r * 10⌉ : ℤ) : ℝ) : EReal) - 1))
          = ((((⌈r * 10⌉ - 1 : ℤ)) : ℝ) : EReal) := by
        have e1 : ((((⌈r * 10⌉ : ℤ) : ℝ) : EReal) - 1) = ((((⌈r * 10⌉ - 1 : ℤ)) : ℝ) : EReal) := by
          push_cast
          rfl
        rw [e1]
        have a0 : (0 : EReal) ≤ ((((⌈r * 10⌉ - 1 : ℤ)) : ℝ) : EReal) := by
          exact_mod_cast (by omega : (0 : ℤ) ≤ ⌈r * 10⌉ - 1)
        have a9 : ((((⌈r * 10⌉ - 1 : ℤ)) : ℝ) : EReal) ≤ ((9 : ℝ) : EReal) := by
          exact_mod_cast (by omega : ⌈r * 10⌉ - 1 ≤ (9 : ℤ))
        rw [max_eq_right a0, min_eq_right a9]
      rw [e, fptosi_int _ (by omega) (by omega), toInt_small _ (by omega) (by omega)]
    have hr : (rBin (r : EReal)).toInt = ⌈r * 10⌉ - 1 := by
      unfold rBin
      rw [clampI, hmul, Ideal.liftRound_coe, fptosi_int _ (by omega) (by omega)]
      have e : (IntOp.subi (BitVec.ofInt 32 ⌈r * 10⌉) 1#32).toInt = ⌈r * 10⌉ - 1 := by
        have h1' : (1#32 : BitVec 32).toInt = 1 := by decide
        unfold IntOp.subi
        rw [BitVec.toInt_sub, toInt_small _ (by omega) (by omega), h1']
        apply Int.bmod_eq_of_le <;> omega
      rw [e]
      omega
    rw [hk, hr]

/-- A bin index below ten reads back signed as itself. -/
private theorem ofNat_toInt (b : Fin 10) : (BitVec.ofNat 32 b.val).toInt = (b.val : ℤ) := by
  have := b.isLt
  rw [BitVec.toInt_ofNat']
  apply Int.bmod_eq_of_le <;> omega

/-- A word is the bin index `b` exactly when its signed value is `b`. -/
private theorem eq_ofNat_iff (b : Fin 10) (k : BitVec 32) :
    k = BitVec.ofNat 32 b.val ↔ k.toInt = (b.val : ℤ) := by
  rw [← ofNat_toInt b]
  exact BitVec.toInt_inj.symm

/-- The count term is the reference's update where the reference's bin is `b`, zero elsewhere. -/
theorem kT0_eq (b : Fin 10) (c : EReal) :
    kT0 (BitVec.ofNat 32 b.val) c = if (rBin c).toInt = (b.val : ℤ) then rW c else 0 := by
  unfold kT0
  rw [kW_eq, rW_eq, ind_eq]
  by_cases h : 0 < c ∧ c ≤ 1
  · rw [if_pos h, mul_one, kBin_eq_rBin c h.1 h.2]
    simp only [eq_ofNat_iff]
  · rw [if_neg h, mul_zero, ite_self]

/-- The confidence term likewise (the reference multiplies the confidence by the weight). -/
theorem kT1_eq (b : Fin 10) (c : EReal) :
    kT1 (BitVec.ofNat 32 b.val) c = if (rBin c).toInt = (b.val : ℤ) then c * rW c else 0 := by
  unfold kT1
  rw [kT0_eq]
  split_ifs
  · exact mul_comm _ _
  · exact zero_mul _

/-- The correctness term likewise. -/
theorem kT2_eq (b : Fin 10) (c : EReal) (q : BitVec 32) :
    kT2 (BitVec.ofNat 32 b.val) c q = if (rBin c).toInt = (b.val : ℤ) then ((q.toInt : ℝ) : EReal) * rW c else 0 := by
  unfold kT2
  rw [kT0_eq]
  split_ifs
  · exact mul_comm _ _
  · exact zero_mul _

end Cert.Hist

end
-- ==== Proof.KStepVal.lean ====
/-
  One grid point of the histogram kernel, read lane by lane on the extended reals.

  Each of the thirty updates of the body is `row + onehot_b · s_b`: at lane `l` it adds `s_b` when `l = b`
  and `0 · s_b = 0` otherwise, so after the ten updates lane `l < 10` has gained exactly `s_l`, and a lane
  `l ≥ 10` nothing.  `s_b` is the sum over the `4096 × 128` block of the bin's masked term.
-/
import proofs.«117713_j17343077941754_1_alg».proof.Proof.KStep
import proofs.«117713_j17343077941754_1_alg».proof.Proof.Elem
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hist

open Idealize.ShloMosaic Idealize.ShloMosaic.ValueIdx Cert.KernelIdeal Cert.KernelIdeal.Gen Cert.Hist

/-! ## The one shape of the thirty updates -/

section Shapes
variable {F : FTy → Type} [FloatOps F]

/-- The indicator row of lane `b`. -/
private def ohRow (b : BitVec 32) : FVec F S1x128 .f32 :=
  sitofp .f32 (extui 32 (cmpi .eq lanes (broadcast S1x128 b)) natLt_1_32)

/-- One update of a row: `prev + oh · s`. -/
private def upd (oh : FVec F S1x128 .f32) (s : F .f32) (prev : Vec F S1x128 .f32) : FVec F S1x128 .f32 :=
  shapeCast S1x128 (addf prev (mulf oh (broadcast S1x128 s))) shapeCasts_S1x128_S1x128

/-- The total of a block: the lane sums, then the sum of those. -/
private def tot (X : FVec F S4096x128 .f32) : F .f32 :=
  extractAt ![0, 0] (shapeCast S1x1 (multiReduction .add [1] S1 (shapeCast S1x4096
    (multiReduction .add [1] S4096 X 0x00000000#32 reduces_S4096x128_S4096 (.inl rfl) rfl)
    shapeCasts_S4096_S1x4096) 0x00000000#32 reduces_S1x4096_S1 (.inl rfl) rfl) shapeCasts_S1_S1x1) inpos_S1x1_p0_0

/-- The masked block of bin `b`: indicator of the bin times the weight. -/
private def maskBlk (b : BitVec 32) (x0 : Vec F S4096x128 .f32) : FVec F S4096x128 .f32 :=
  mulf (sitofp .f32 (extui 32 (cmpi .eq (k0_pay8 x0) (broadcast S4096x128 b)) natLt_1_32)) (k0_pay9 x0)

/-- The count chain is ten updates by the totals of the ten masked blocks. -/
private theorem cntStep_chain (x0 : Vec F S4096x128 .f32) (prev : Vec F S1x128 .f32) :
    cntStep x0 prev = upd (ohRow 9#32) (tot (maskBlk 9#32 x0)) (upd (ohRow 8#32) (tot (maskBlk 8#32 x0)) (upd (ohRow 7#32) (tot (maskBlk 7#32 x0)) (upd (ohRow 6#32) (tot (maskBlk 6#32 x0)) (upd (ohRow 5#32) (tot (maskBlk 5#32 x0)) (upd (ohRow 4#32) (tot (maskBlk 4#32 x0)) (upd (ohRow 3#32) (tot (maskBlk 3#32 x0)) (upd (ohRow 2#32) (tot (maskBlk 2#32 x0)) (upd (ohRow 1#32) (tot (maskBlk 1#32 x0)) (upd (ohRow 0#32) (tot (maskBlk 0#32 x0)) (prev)))))))))) := rfl

/-- The confidence chain: the masked blocks times the confidences. -/
private theorem confStep_chain (x0 : Vec F S4096x128 .f32) (prev : Vec F S1x128 .f32) :
    confStep x0 prev = upd (ohRow 9#32) (tot (mulf (maskBlk 9#32 x0) (k0_pay6 x0))) (upd (ohRow 8#32) (tot (mulf (maskBlk 8#32 x0) (k0_pay6 x0))) (upd (ohRow 7#32) (tot (mulf (maskBlk 7#32 x0) (k0_pay6 x0))) (upd (ohRow 6#32) (tot (mulf (maskBlk 6#32 x0) (k0_pay6 x0))) (upd (ohRow 5#32) (tot (mulf (maskBlk 5#32 x0) (k0_pay6 x0))) (upd (ohRow 4#32) (tot (mulf (maskBlk 4#32 x0) (k0_pay6 x0))) (upd (ohRow 3#32) (tot (mulf (maskBlk 3#32 x0) (k0_pay6 x0))) (upd (ohRow 2#32) (tot (mulf (maskBlk 2#32 x0) (k0_pay6 x0))) (upd (ohRow 1#32) (tot (mulf (maskBlk 1#32 x0) (k0_pay6 x0))) (upd (ohRow 0#32) (tot (mulf (maskBlk 0#32 x0) (k0_pay6 x0))) (prev)))))))))) := rfl

/-- The correctness chain: the masked blocks times the correctness words read as signed integers. -/
private theorem accStep_chain (x0 : Vec F S4096x128 .f32) (x1 : Vec F S4096x128 .i32) (prev : Vec F S1x128 .f32) :
    accStep x0 x1 prev = upd (ohRow 9#32) (tot (mulf (maskBlk 9#32 x0) (k0_pay7 x1))) (upd (ohRow 8#32) (tot (mulf (maskBlk 8#32 x0) (k0_pay7 x1))) (upd (ohRow 7#32) (tot (mulf (maskBlk 7#32 x0) (k0_pay7 x1))) (upd (ohRow 6#32) (tot (mulf (maskBlk 6#32 x0) (k0_pay7 x1))) (upd (ohRow 5#32) (tot (mulf (maskBlk 5#32 x0) (k0_pay7 x1))) (upd (ohRow 4#32) (tot (mulf (maskBlk 4#32 x0) (k0_pay7 x1))) (upd (ohRow 3#32) (tot (mulf (maskBlk 3#32 x0) (k0_pay7 x1))) (upd (ohRow 2#32) (tot (mulf (maskBlk 2#32 x0) (k0_pay7 x1))) (upd (ohRow 1#32) (tot (mulf (maskBlk 1#32 x0) (k0_pay7 x1))) (upd (ohRow 0#32) (tot (mulf (maskBlk 0#32 x0) (k0_pay7 x1))) (prev)))))))))) := rfl

end Shapes

/-! ## Reading the pieces at an index, on the extended reals -/

private theorem upd_apply (oh : FVec Ideal S1x128 .f32) (s : Ideal .f32) (prev : Vec Ideal S1x128 .f32) (l : Fin 128) :
    upd oh s prev (ix2 (0 : Fin 1) l) = prev (ix2 (0 : Fin 1) l) + oh (ix2 (0 : Fin 1) l) * s := by
  unfold upd
  rw [shapeCast_self]
  rfl

private theorem lanes_apply (l : Fin 128) : lanes (ix2 (0 : Fin 1) l) = BitVec.ofNat 32 l.val := by
  unfold lanes
  rw [iota_single_apply]

private theorem ohRow_apply (k : Nat) (hk : k < 128) (l : Fin 128) :
    ohRow (F := Ideal) (BitVec.ofNat 32 k) (ix2 (0 : Fin 1) l) = if l.val = k then 1 else 0 := by
  have h1 : ohRow (F := Ideal) (BitVec.ofNat 32 k) (ix2 (0 : Fin 1) l)
      = ind (BitVec.ofNat 32 k) (lanes (ix2 (0 : Fin 1) l)) := rfl
  rw [h1, ind_eq, lanes_apply]
  have hl := l.isLt
  by_cases h : l.val = k
  · rw [if_pos h, if_pos (by rw [h])]
  · rw [if_neg h, if_neg]
    intro he
    apply h
    have := congrArg BitVec.toNat he
    rw [BitVec.toNat_ofNat, BitVec.toNat_ofNat] at this
    omega

/-- Ten updates in a row, lane by lane: lane `l < 10` gains `f l`, the others nothing. -/
private theorem chain_apply (f : Nat → EReal) (prev : Vec Ideal S1x128 .f32) (l : Fin 128) :
    (upd (ohRow 9#32) (f 9) (upd (ohRow 8#32) (f 8) (upd (ohRow 7#32) (f 7) (upd (ohRow 6#32) (f 6) (upd (ohRow 5#32) (f 5) (upd (ohRow 4#32) (f 4) (upd (ohRow 3#32) (f 3) (upd (ohRow 2#32) (f 2) (upd (ohRow 1#32) (f 1) (upd (ohRow 0#32) (f 0) (prev))))))))))) (ix2 (0 : Fin 1) l)
      = prev (ix2 (0 : Fin 1) l) + (if l.val < 10 then f l.val else 0) := by
  simp only [upd_apply]
  rw [ohRow_apply 0 (by omega), ohRow_apply 1 (by omega), ohRow_apply 2 (by omega), ohRow_apply 3 (by omega),
    ohRow_apply 4 (by omega), ohRow_apply 5 (by omega), ohRow_apply 6 (by omega), ohRow_apply 7 (by omega),
    ohRow_apply 8 (by omega), ohRow_apply 9 (by omega)]
  obtain ⟨n, hn⟩ := l
  show _ = _ + (if n < 10 then f n else 0)
  simp only []
  by_cases h : n < 10
  · interval_cases n <;> simp
  · rw [if_neg h, if_neg (by omega), if_neg (by omega), if_neg (by omega), if_neg (by omega), if_neg (by omega),
      if_neg (by omega), if_neg (by omega), if_neg (by omega), if_neg (by omega), if_neg (by omega)]
    simp

/-- The inserted index of the lane sum is `(r, q)`. -/
private theorem lift_lane (r : Fin 4096) (q : Fin 128) :
    reduces_S4096x128_S4096.lift (ix1 r) q = ix2 r q := by
  funext a
  apply Fin.ext
  match a with
  | ⟨0, _⟩ => rfl
  | ⟨1, _⟩ => rfl

/-- The inserted index of the sum of the lane sums is `(0, r)`. -/
private theorem lift_row (r : Fin 4096) :
    reduces_S1x4096_S1.lift (ix1 (0 : Fin 1)) r = ix2 (0 : Fin 1) r := by
  funext a
  apply Fin.ext
  match a with
  | ⟨0, _⟩ => rfl
  | ⟨1, _⟩ => rfl

/-- A lane sum read at a row. -/
private theorem laneSum_apply (X : FVec Ideal S4096x128 .f32) (hφ : FKind.Formats .f32)
    (hacc : (0x00000000#32 : BitVec 32) = 0x00000000#32) (r : Fin 4096) :
    multiReduction (F := Ideal) .add [1] S4096 X 0x00000000#32 reduces_S4096x128_S4096 hφ hacc (ix1 r)
      = ∑ q : Fin 128, X (ix2 r q) := by
  refine (Ideal.multiReduction_add_single X 0x00000000#32 reduces_S4096x128_S4096 hφ hacc (ix1 r)).trans ?_
  exact Finset.sum_congr rfl (fun q _ => congrArg X (lift_lane r q))

/-- The sum of a one-row block read at its one index. -/
private theorem rowSum_apply (Y : FVec Ideal S1x4096 .f32) (hφ : FKind.Formats .f32)
    (hacc : (0x00000000#32 : BitVec 32) = 0x00000000#32) :
    multiReduction (F := Ideal) .add [1] S1 Y 0x00000000#32 reduces_S1x4096_S1 hφ hacc (ix1 (0 : Fin 1))
      = ∑ r : Fin 4096, Y (ix2 (0 : Fin 1) r) := by
  refine (Ideal.multiReduction_add_single Y 0x00000000#32 reduces_S1x4096_S1 hφ hacc (ix1 (0 : Fin 1))).trans ?_
  exact Finset.sum_congr rfl (fun r _ => congrArg Y (lift_row r))

/-- The block total is the double sum of the block. -/
private theorem tot_apply (X : FVec Ideal S4096x128 .f32) :
    tot X = ∑ r : Fin 4096, ∑ q : Fin 128, X (ix2 r q) := by
  unfold tot extractAt
  have hi : (fun a => (⟨(![0, 0] : Fin 2 → Nat) a, inpos_S1x1_p0_0 a⟩ : Fin (S1x1.size a)))
      = ix2 (0 : Fin 1) (0 : Fin 1) := by
    funext a
    match a with
    | ⟨0, _⟩ => rfl
    | ⟨1, _⟩ => rfl
  rw [hi, shapeCast_a_1a_apply, rowSum_apply]
  refine Finset.sum_congr rfl (fun r _ => ?_)
  rw [shapeCast_a_1a_apply, laneSum_apply]

/-- The bin block at an index is the sample's bin. -/
private theorem pay8_apply (x0 : Vec Ideal S4096x128 .f32) (j : S4096x128.Idx) : k0_pay8 x0 j = kBin (x0 j) := by
  unfold k0_pay8 k0_pay6
  rw [shapeCast_self]
  rfl

/-- The weight block at an index is the sample's weight. -/
private theorem pay9_apply (x0 : Vec Ideal S4096x128 .f32) (j : S4096x128.Idx) : k0_pay9 x0 j = kW (x0 j) := by
  unfold k0_pay9 k0_pay6
  rw [shapeCast_self]
  rfl

/-- The masked block at an index is the sample's count term. -/
private theorem maskBlk_apply (b : BitVec 32) (x0 : Vec Ideal S4096x128 .f32) (j : S4096x128.Idx) :
    maskBlk b x0 j = kT0 b (x0 j) := by
  show ind b (k0_pay8 x0 j) * k0_pay9 x0 j = _
  rw [pay8_apply, pay9_apply]
  rfl

private theorem pay6_eq (x0 : Vec Ideal S4096x128 .f32) : k0_pay6 x0 = x0 := by
  unfold k0_pay6
  rw [shapeCast_self]

private theorem pay7_apply (x1 : Vec Ideal S4096x128 .i32) (j : S4096x128.Idx) :
    k0_pay7 (F := Ideal) x1 j = (((x1 j).toInt : ℝ) : EReal) := by
  unfold k0_pay7
  rw [shapeCast_self]
  rfl

/-! ## The four readings -/

/-- The reset row is zero. -/
theorem zeroRow_apply (l : Fin 128) : (zeroRow (F := Ideal)) (ix2 (0 : Fin 1) l) = 0 := by
  unfold zeroRow k0_pay3
  rw [shapeCast_self]
  exact Ideal.ofBits_zero_f32

/-- The count row after a point: lane `l < 10` gains the block's number of valid samples of bin `l`. -/
theorem cntStep_apply (x0 : Vec Ideal S4096x128 .f32) (prev : Vec Ideal S1x128 .f32) (l : Fin 128) :
    cntStep x0 prev (ix2 (0 : Fin 1) l)
      = prev (ix2 (0 : Fin 1) l)
        + (if l.val < 10 then ∑ r : Fin 4096, ∑ q : Fin 128, kT0 (BitVec.ofNat 32 l.val) (x0 (ix2 r q)) else 0) := by
  rw [cntStep_chain]
  refine (chain_apply (fun k => tot (maskBlk (BitVec.ofNat 32 k) x0)) prev l).trans ?_
  by_cases h : l.val < 10
  · rw [if_pos h, if_pos h, tot_apply]
    refine congrArg (fun t => prev (ix2 (0 : Fin 1) l) + t) ?_
    exact Finset.sum_congr rfl (fun r _ => Finset.sum_congr rfl (fun q _ => maskBlk_apply _ x0 _))
  · rw [if_neg h, if_neg h]

/-- The confidence-sum row after a point. -/
theorem confStep_apply (x0 : Vec Ideal S4096x128 .f32) (prev : Vec Ideal S1x128 .f32) (l : Fin 128) :
    confStep x0 prev (ix2 (0 : Fin 1) l)
      = prev (ix2 (0 : Fin 1) l)
        + (if l.val < 10 then ∑ r : Fin 4096, ∑ q : Fin 128, kT1 (BitVec.ofNat 32 l.val) (x0 (ix2 r q)) else 0) := by
  rw [confStep_chain]
  refine (chain_apply (fun k => tot (mulf (maskBlk (BitVec.ofNat 32 k) x0) (k0_pay6 x0))) prev l).trans ?_
  by_cases h : l.val < 10
  · rw [if_pos h, if_pos h, tot_apply]
    refine congrArg (fun t => prev (ix2 (0 : Fin 1) l) + t) ?_
    refine Finset.sum_congr rfl (fun r _ => Finset.sum_congr rfl (fun q _ => ?_))
    rw [mulf_apply, maskBlk_apply, pay6_eq]
    rfl
  · rw [if_neg h, if_neg h]

/-- The correctness-sum row after a point. -/
theorem accStep_apply (x0 : Vec Ideal S4096x128 .f32) (x1 : Vec Ideal S4096x128 .i32) (prev : Vec Ideal S1x128 .f32)
    (l : Fin 128) :
    accStep x0 x1 prev (ix2 (0 : Fin 1) l)
      = prev (ix2 (0 : Fin 1) l)
        + (if l.val < 10 then ∑ r : Fin 4096, ∑ q : Fin 128,
            kT2 (BitVec.ofNat 32 l.val) (x0 (ix2 r q)) (x1 (ix2 r q)) else 0) := by
  rw [accStep_chain]
  refine (chain_apply (fun k => tot (mulf (maskBlk (BitVec.ofNat 32 k) x0) (k0_pay7 x1))) prev l).trans ?_
  by_cases h : l.val < 10
  · rw [if_pos h, if_pos h, tot_apply]
    refine congrArg (fun t => prev (ix2 (0 : Fin 1) l) + t) ?_
    refine Finset.sum_congr rfl (fun r _ => Finset.sum_congr rfl (fun q _ => ?_))
    rw [mulf_apply, maskBlk_apply, pay7_apply]
    rfl
  · rw [if_neg h, if_neg h]

end Cert.KernelIdeal.Hist

end
-- ==== Proof.SumIdx.lean ====
/-
  A sum over all `2^25` samples, taken block by block. The flat array is read as `64` blocks of
  `4096` rows of `128` lanes: row `4096 t + r`, lane `q` of the `262144 × 128` arrangement is the
  sample at flat index `(4096 t + r) · 128 + q`, and `(t, r, q) ↦ (4096 t + r) · 128 + q` is a
  bijection from `64 × 4096 × 128` onto `2^25` (its inverse is
  `j ↦ (j / 524288, (j / 128) mod 4096, j mod 128)`), so the triple sum over blocks, rows and lanes
  is the sum over all samples.
-/
import Idealize.ShloMosaic.Lib.ValueIdx

noncomputable section

namespace Cert.Hist

open Idealize.ShloMosaic Idealize.ShloMosaic.ValueIdx

/-- The flat index of block `t`, row `r`, lane `q`. -/
def flat (t : Fin 64) (r : Fin 4096) (q : Fin 128) : (⟨1, ![33554432]⟩ : Shape).Idx :=
  ix1 ⟨(t.val * 4096 + r.val) * 128 + q.val, by have := t.isLt; have := r.isLt; have := q.isLt; omega⟩

/-- A rank-1 index's coordinate is below the extent, written as `n` itself. -/
private theorem idx1_lt {n : Nat} (j : (⟨1, ![n]⟩ : Shape).Idx) : (j 0).val < n := (j 0).isLt

/-- `(t, r, q) ↦ (4096 t + r) · 128 + q` as a bijection onto the flat index set. -/
private def blocksEquiv : Fin 64 × Fin 4096 × Fin 128 ≃ (⟨1, ![33554432]⟩ : Shape).Idx where
  toFun p := flat p.1 p.2.1 p.2.2
  invFun j := (⟨(j 0).val / 524288, by have := idx1_lt j; omega⟩,
    ⟨(j 0).val / 128 % 4096, Nat.mod_lt _ (by norm_num)⟩,
    ⟨(j 0).val % 128, Nat.mod_lt _ (by norm_num)⟩)
  left_inv p := by
    obtain ⟨t, r, q⟩ := p
    have ht := t.isLt
    have hr := r.isLt
    have hq := q.isLt
    refine Prod.ext (Fin.ext ?_) (Prod.ext (Fin.ext ?_) (Fin.ext ?_))
    · show ((t.val * 4096 + r.val) * 128 + q.val) / 524288 = t.val
      omega
    · show ((t.val * 4096 + r.val) * 128 + q.val) / 128 % 4096 = r.val
      omega
    · show ((t.val * 4096 + r.val) * 128 + q.val) % 128 = q.val
      omega
  right_inv j := by
    have h := idx1_lt j
    funext d
    match d with
    | ⟨0, _⟩ =>
      refine Fin.ext ?_
      show ((j 0).val / 524288 * 4096 + (j 0).val / 128 % 4096) * 128 + (j 0).val % 128 = (j 0).val
      omega

/-- Summing block by block, row by row, lane by lane is summing over all samples. -/
theorem sum_blocks {M : Type*} [AddCommMonoid M] (g : (⟨1, ![33554432]⟩ : Shape).Idx → M) :
    ∑ t : Fin 64, ∑ r : Fin 4096, ∑ q : Fin 128, g (flat t r q) = ∑ j : (⟨1, ![33554432]⟩ : Shape).Idx, g j := by
  rw [← Equiv.sum_comp blocksEquiv g, Fintype.sum_prod_type]
  refine Finset.sum_congr rfl (fun t _ => ?_)
  rw [Fintype.sum_prod_type]
  rfl

end Cert.Hist

end
-- ==== Proof.KBlocks.lean ====
/-
  What the two input windows hold at a grid point: block `t` of the `262144 × 128` arrangement of an
  argument is rows `4096 t … 4096 t + 4095`, and the arrangement is the flat array read row-major, so
  entry `(r, q)` of block `t` is sample `(4096 t + r) · 128 + q`.
-/
import proofs.«117713_j17343077941754_1_alg».proof.Proof.Gen.KernelIdeal.Frame.Runs
import proofs.«117713_j17343077941754_1_alg».proof.Proof.KAt
import proofs.«117713_j17343077941754_1_alg».proof.Proof.SumIdx
import Idealize.ShloMosaic.Lib.ValueIdx
import Idealize.ShloMosaic.Lib.Pipeline.Value
import Idealize.ShloMosaic.Lib.StableHlo.Run

noncomputable section

namespace Cert.KernelIdeal.Hist

open Idealize.ShloMosaic Idealize.ShloMosaic.TcCoe Idealize.SL.Sem Idealize.ShloMosaic.ValueIdx
open Cert.KernelIdeal Cert.KernelIdeal.Gen Cert.Hist

variable {F : FTy → Type} [FloatOps F]
variable (m : (ℓ : Loc nD τ sig) → Buf (Elt F) ℓ)

/-- Reading the `262144 × 128` arrangement of a flat array at `(a, q)` is reading the flat array at `128 a + q`. -/
private theorem cast_read {α : Type} (x : S33554432.Idx → α) (i : S262144x128.Idx) (k : Nat) (hlt : k < 33554432)
    (hk : (i 0).val * 128 + (i 1).val = k) :
    shapeCast S262144x128 x shapeCasts_S33554432_S262144x128 i = x (ix1 ⟨k, hlt⟩) := by
  refine shapeCast_apply x _ i _ ?_
  rw [Shape.rowMajor_val_one, Shape.rowMajor_val_two]
  show k = (i 0).val * 128 + (i 1).val
  omega

/-- When the grid starts, the first window's array is the `262144 × 128` arrangement of the first argument. -/
private theorem arr0_eq (c : Dev nD) : (V m c main_v0 : S262144x128.Idx → Elt F .f32)
    = shapeCast S262144x128 (m ((c : Thread nD τ).loc main_arg0)) shapeCasts_S33554432_S262144x128 := by
  show StableHlo.after hostOps0 (fun b => m (c, b)) (Proc.devRef .tc main_v0) = _
  after_results
  rfl

/-- When the grid starts, the second window's array is the `262144 × 128` arrangement of the second argument. -/
private theorem arr1_eq (c : Dev nD) : (V m c main_v1 : S262144x128.Idx → Elt F .i32)
    = shapeCast S262144x128 (m ((c : Thread nD τ).loc main_arg1)) shapeCasts_S33554432_S262144x128 := by
  show StableHlo.after hostOps0 (fun b => m (c, b)) (Proc.devRef .tc main_v1) = _
  after_results
  rfl

/-- At point `t` the first window sits at block row `t`, block column `0`. -/
private theorem index0 : ∀ t : Fin cfg0.N, win0_0.index t 0 = t.val ∧ win0_0.index t 1 = 0 :=
  (by decide +kernel : ∀ t : Fin grid0.N, _)

/-- At point `t` the second window sits at block row `t`, block column `0`. -/
private theorem index1 : ∀ t : Fin cfg0.N, win0_1.index t 0 = t.val ∧ win0_1.index t 1 = 0 :=
  (by decide +kernel : ∀ t : Fin grid0.N, _)

/-- Entry `j` of the first window's block at point `t` is the array at row `4096 t + j₀`, lane `j₁`. -/
private theorem blk0_read (c : Dev nD) (t : Fin cfg0.N) (j : S4096x128.Idx) (i : S262144x128.Idx)
    (h0 : (i 0).val = t.val * 4096 + (j 0).val) (h1 : (i 1).val = (j 1).val) :
    (iblk m c 0 t : Vec F S4096x128 .f32) j = V m c main_v0 i := by
  unfold iblk
  rw [View.read_apply]
  show V m c main_v0 _ = _
  congr 1
  funext a
  apply Fin.ext
  match a with
  | ⟨0, _⟩ =>
    show win0_0.index t 0 * 4096 + 1 * (j 0).val = (i 0).val
    rw [(index0 t).1]; omega
  | ⟨1, _⟩ =>
    show win0_0.index t 1 * 128 + 1 * (j 1).val = (i 1).val
    rw [(index0 t).2]; omega

/-- Entry `j` of the second window's block at point `t` is the array at row `4096 t + j₀`, lane `j₁`. -/
private theorem blk1_read (c : Dev nD) (t : Fin cfg0.N) (j : S4096x128.Idx) (i : S262144x128.Idx)
    (h0 : (i 0).val = t.val * 4096 + (j 0).val) (h1 : (i 1).val = (j 1).val) :
    (iblk m c 1 t : Vec F S4096x128 .i32) j = V m c main_v1 i := by
  unfold iblk
  rw [View.read_apply]
  show V m c main_v1 _ = _
  congr 1
  funext a
  apply Fin.ext
  match a with
  | ⟨0, _⟩ =>
    show win0_1.index t 0 * 4096 + 1 * (j 0).val = (i 0).val
    rw [(index1 t).1]; omega
  | ⟨1, _⟩ =>
    show win0_1.index t 1 * 128 + 1 * (j 1).val = (i 1).val
    rw [(index1 t).2]; omega

/-- Entry `(r, q)` of the confidence block at point `t` is sample `(4096 t + r) · 128 + q` of the first argument. -/
theorem blkC_apply (c : Dev nD) (t : Fin cfg0.N) (r : Fin 4096) (q : Fin 128) :
    blkC m c t (ix2 r q) = m ((c : Thread nD τ).loc main_arg0) (flat (t.cast N_0) r q) := by
  have ht : t.val < 64 := (t.cast N_0).isLt
  have hr := r.isLt
  have hq := q.isLt
  have hlt : (t.val * 4096 + r.val) * 128 + q.val < 33554432 := by omega
  refine (blk0_read m c t (ix2 r q) (ix2 ⟨t.val * 4096 + r.val, by omega⟩ q) rfl rfl).trans ?_
  rw [arr0_eq]
  exact cast_read _ _ ((t.val * 4096 + r.val) * 128 + q.val) hlt rfl

/-- Entry `(r, q)` of the correctness block at point `t` is that sample of the second argument. -/
theorem blkQ_apply (c : Dev nD) (t : Fin cfg0.N) (r : Fin 4096) (q : Fin 128) :
    blkQ m c t (ix2 r q) = m ((c : Thread nD τ).loc main_arg1) (flat (t.cast N_0) r q) := by
  have ht : t.val < 64 := (t.cast N_0).isLt
  have hr := r.isLt
  have hq := q.isLt
  have hlt : (t.val * 4096 + r.val) * 128 + q.val < 33554432 := by omega
  refine (blk1_read m c t (ix2 r q) (ix2 ⟨t.val * 4096 + r.val, by omega⟩ q) rfl rfl).trans ?_
  rw [arr1_eq]
  exact cast_read _ _ ((t.val * 4096 + r.val) * 128 + q.val) hlt rfl

end Cert.KernelIdeal.Hist

end
-- ==== Proof.KSum.lean ====
/-
  The three accumulator rows after the last grid point, lane `b < 10`: the sum over ALL samples of
  the kernel's masked term of bin `b`.

  Lane `b` of a row gains at every point the block's sum of the bin's term, starting from zero; after
  the sixty-four points it holds the sum over the blocks, the rows and the lanes, and the blocks tile
  the flat arrays: entry `(r, q)` of block `t` is sample `(4096 t + r) · 128 + q`.
-/
import proofs.«117713_j17343077941754_1_alg».proof.Proof.KAt
import proofs.«117713_j17343077941754_1_alg».proof.Proof.KStepVal
import proofs.«117713_j17343077941754_1_alg».proof.Proof.KBlocks
import proofs.«117713_j17343077941754_1_alg».proof.Proof.SumIdx
import proofs.«117713_j17343077941754_1_alg».proof.Proof.Elem

noncomputable section

namespace Cert.KernelIdeal.Hist

open Idealize.ShloMosaic Idealize.ShloMosaic.TcCoe Idealize.SL.Sem Idealize.ShloMosaic.ValueIdx
open Cert.KernelIdeal Cert.KernelIdeal.Gen Cert.Hist

variable (m : (ℓ : Loc nD τ sig) → Buf (Elt Ideal) ℓ)

/-- Lane `b` of a `1 × 128` row, for a bin `b < 10`. -/
abbrev laneOf (b : Fin 10) : Fin 128 := ⟨b.val, by have := b.isLt; omega⟩

/-- What block `t` adds to lane `b` of the count row (zero past the grid). -/
def blkSum0 (c : Dev nD) (b : Fin 10) (t : ℕ) : EReal :=
  if h : t < cfg0.N then ∑ r : Fin 4096, ∑ q : Fin 128, kT0 (BitVec.ofNat 32 b.val) (blkC m c ⟨t, h⟩ (ix2 r q)) else 0
/-- What block `t` adds to lane `b` of the confidence row. -/
def blkSum1 (c : Dev nD) (b : Fin 10) (t : ℕ) : EReal :=
  if h : t < cfg0.N then ∑ r : Fin 4096, ∑ q : Fin 128, kT1 (BitVec.ofNat 32 b.val) (blkC m c ⟨t, h⟩ (ix2 r q)) else 0
/-- What block `t` adds to lane `b` of the correctness row. -/
def blkSum2 (c : Dev nD) (b : Fin 10) (t : ℕ) : EReal :=
  if h : t < cfg0.N then ∑ r : Fin 4096, ∑ q : Fin 128,
    kT2 (BitVec.ofNat 32 b.val) (blkC m c ⟨t, h⟩ (ix2 r q)) (blkQ m c ⟨t, h⟩ (ix2 r q)) else 0

theorem lane_lt (b : Fin 10) : (laneOf b).val < 10 := b.isLt

/-- The count row after point `n`, lane `b`: the blocks' contributions up to `n`. -/
theorem cntAt_sum (c : Dev nD) (b : Fin 10) : ∀ (n : ℕ) (h : n < cfg0.N),
    cntAt m c n h (ix2 (0 : Fin 1) (laneOf b)) = ∑ t ∈ Finset.range (n + 1), blkSum0 m c b t
  | 0, h => by
    show cntStep (blkC m c ⟨0, h⟩) zeroRow (ix2 (0 : Fin 1) (laneOf b)) = _
    rw [cntStep_apply, zeroRow_apply, zero_add, if_pos (lane_lt b), Finset.sum_range_one, blkSum0, dif_pos h]
  | n + 1, h => by
    show cntStep (blkC m c ⟨n + 1, h⟩) (cntAt m c n (Nat.lt_of_succ_lt h)) (ix2 (0 : Fin 1) (laneOf b)) = _
    rw [cntStep_apply, cntAt_sum c b n, if_pos (lane_lt b), Finset.sum_range_succ _ (n + 1), blkSum0, dif_pos h]

theorem confAt_sum (c : Dev nD) (b : Fin 10) : ∀ (n : ℕ) (h : n < cfg0.N),
    confAt m c n h (ix2 (0 : Fin 1) (laneOf b)) = ∑ t ∈ Finset.range (n + 1), blkSum1 m c b t
  | 0, h => by
    show confStep (blkC m c ⟨0, h⟩) zeroRow (ix2 (0 : Fin 1) (laneOf b)) = _
    rw [confStep_apply, zeroRow_apply, zero_add, if_pos (lane_lt b), Finset.sum_range_one, blkSum1, dif_pos h]
  | n + 1, h => by
    show confStep (blkC m c ⟨n + 1, h⟩) (confAt m c n (Nat.lt_of_succ_lt h)) (ix2 (0 : Fin 1) (laneOf b)) = _
    rw [confStep_apply, confAt_sum c b n, if_pos (lane_lt b), Finset.sum_range_succ _ (n + 1), blkSum1, dif_pos h]

theorem accAt_sum (c : Dev nD) (b : Fin 10) : ∀ (n : ℕ) (h : n < cfg0.N),
    accAt m c n h (ix2 (0 : Fin 1) (laneOf b)) = ∑ t ∈ Finset.range (n + 1), blkSum2 m c b t
  | 0, h => by
    show accStep (blkC m c ⟨0, h⟩) (blkQ m c ⟨0, h⟩) zeroRow (ix2 (0 : Fin 1) (laneOf b)) = _
    rw [accStep_apply, zeroRow_apply, zero_add, if_pos (lane_lt b), Finset.sum_range_one, blkSum2, dif_pos h]
  | n + 1, h => by
    show accStep (blkC m c ⟨n + 1, h⟩) (blkQ m c ⟨n + 1, h⟩) (accAt m c n (Nat.lt_of_succ_lt h)) (ix2 (0 : Fin 1) (laneOf b)) = _
    rw [accStep_apply, accAt_sum c b n, if_pos (lane_lt b), Finset.sum_range_succ _ (n + 1), blkSum2, dif_pos h]

/-- A sum of per-block contributions over the sixty-four points, each read off the flat arrays, is the sum over all samples. -/
theorem sum_range_blocks (g : S33554432.Idx → EReal) (G : ℕ → EReal)
    (hG : ∀ (t : ℕ) (h : t < 64), G t = ∑ r : Fin 4096, ∑ q : Fin 128, g (flat ⟨t, h⟩ r q)) :
    ∑ t ∈ Finset.range 64, G t = ∑ j : S33554432.Idx, g j := by
  rw [← sum_blocks g, Finset.sum_range]
  exact Finset.sum_congr rfl fun t _ => hG t.val t.isLt

/-- The count row after the last point, lane `b`: the sum over all samples of the kernel's count term of bin `b`. -/
theorem cnt_total (c : Dev nD) (b : Fin 10) (h : 63 < cfg0.N) :
    cntAt m c 63 h (ix2 (0 : Fin 1) (laneOf b))
      = ∑ j : S33554432.Idx, kT0 (BitVec.ofNat 32 b.val) (m ((c : Thread nD τ).loc main_arg0) j) := by
  rw [cntAt_sum]
  refine sum_range_blocks (fun j => kT0 (BitVec.ofNat 32 b.val) (m ((c : Thread nD τ).loc main_arg0) j)) _ fun t ht => ?_
  have hN : t < cfg0.N := by rw [show cfg0.N = 64 from N_0]; exact ht
  rw [blkSum0, dif_pos hN]
  refine Finset.sum_congr rfl fun r _ => Finset.sum_congr rfl fun q _ => ?_
  rw [blkC_apply]
  rfl

theorem conf_total (c : Dev nD) (b : Fin 10) (h : 63 < cfg0.N) :
    confAt m c 63 h (ix2 (0 : Fin 1) (laneOf b))
      = ∑ j : S33554432.Idx, kT1 (BitVec.ofNat 32 b.val) (m ((c : Thread nD τ).loc main_arg0) j) := by
  rw [confAt_sum]
  refine sum_range_blocks (fun j => kT1 (BitVec.ofNat 32 b.val) (m ((c : Thread nD τ).loc main_arg0) j)) _ fun t ht => ?_
  have hN : t < cfg0.N := by rw [show cfg0.N = 64 from N_0]; exact ht
  rw [blkSum1, dif_pos hN]
  refine Finset.sum_congr rfl fun r _ => Finset.sum_congr rfl fun q _ => ?_
  rw [blkC_apply]
  rfl

theorem acc_total (c : Dev nD) (b : Fin 10) (h : 63 < cfg0.N) :
    accAt m c 63 h (ix2 (0 : Fin 1) (laneOf b))
      = ∑ j : S33554432.Idx, kT2 (BitVec.ofNat 32 b.val) (m ((c : Thread nD τ).loc main_arg0) j)
          (m ((c : Thread nD τ).loc main_arg1) j) := by
  rw [accAt_sum]
  refine sum_range_blocks (fun j => kT2 (BitVec.ofNat 32 b.val) (m ((c : Thread nD τ).loc main_arg0) j)
    (m ((c : Thread nD τ).loc main_arg1) j)) _ fun t ht => ?_
  have hN : t < cfg0.N := by rw [show cfg0.N = 64 from N_0]; exact ht
  rw [blkSum2, dif_pos hN]
  refine Finset.sum_congr rfl fun r _ => Finset.sum_congr rfl fun q _ => ?_
  rw [blkC_apply, blkQ_apply]
  rfl

end Cert.KernelIdeal.Hist

end
-- ==== Proof.RefValue.lean ====
/-
  The reference, read: its result is the calibration error of three ten-entry rows, each the
  scatter-add of one update per sample onto the sample's bin.  At the extended reals a scatter-add
  is, entry by entry, the initial value (zero here) plus the sum of the updates that land on the entry;
  with one index per update and no window, update `j` lands on entry `b` exactly when the index word
  of sample `j`, read signed, is `b`.  So each row is a sum over ALL samples of the update where the
  sample's bin is `b` and of zero elsewhere.
-/
import proofs.«117713_j17343077941754_1_alg».proof.Proof.RefRun
import proofs.«117713_j17343077941754_1_alg».proof.Proof.RefRead
import proofs.«117713_j17343077941754_1_alg».proof.Proof.Tail
import proofs.«117713_j17343077941754_1_alg».proof.Proof.Elem
import Idealize.ShloMosaic.Lib.ValueIdx

noncomputable section

namespace Cert.ReferenceIdeal.RefValue

open Idealize.ShloMosaic Idealize.ShloMosaic.TcCoe Idealize.SL.Sem Idealize.ShloMosaic.ValueIdx
open Cert.ReferenceIdeal Cert.ReferenceIdeal.Gen Cert.Hist

/-- The index array is read at row `j`, column `0`. -/
theorem siIdx_eq (j : S33554432.Idx) (c : Fin scatter_S10_S33554432x1_S33554432_n_0_0_1.scatterDimsToOperandDims.length) :
    scatter_S10_S33554432x1_S33554432_n_0_0_1.siIdx j c = ix2 (j 0) 0 := by
  funext b
  match b with
  | ⟨0, _⟩ => rfl
  | ⟨1, _⟩ =>
    apply Fin.ext
    have := c.isLt
    show c.val = 0
    have h1 : scatter_S10_S33554432x1_S33554432_n_0_0_1.scatterDimsToOperandDims.length = 1 := rfl
    omega

/-- The window of update `j` starts at its index word, read signed. -/
theorem start_eq (j : S33554432.Idx) (idx : IVec S33554432x1 32) (a : Fin S10.rank) :
    scatter_S10_S33554432x1_S33554432_n_0_0_1.start j idx a = (idx (ix2 (j 0) 0)).toInt := by
  have ha : a ∈ scatter_S10_S33554432x1_S33554432_n_0_0_1.scatterDimsToOperandDims := by
    match a with
    | ⟨0, _⟩ => exact List.mem_singleton.2 rfl
  unfold ScatterDims.start
  rw [dif_pos ha, siIdx_eq]
  rfl

/-- The operand's one axis is an inserted one, so the window coordinate on it is zero. -/
theorem window_eq (j : S33554432.Idx) (a : Fin S10.rank) : scatter_S10_S33554432x1_S33554432_n_0_0_1.window j a = 0 := by
  have hk : scatter_S10_S33554432x1_S33554432_n_0_0_1.sKept = [] := by decide
  have ha : a ∉ scatter_S10_S33554432x1_S33554432_n_0_0_1.sKept := by rw [hk]; exact List.not_mem_nil
  unfold ScatterDims.window
  rw [dif_neg ha]

/-- Update `j` lands on entry `b` exactly when its index word, read signed, is `b`. -/
theorem resultIdx_iff (j : S33554432.Idx) (idx : IVec S33554432x1 32) (b : Fin 10) :
    scatter_S10_S33554432x1_S33554432_n_0_0_1.resultIdx? j idx = some (ix1 b) ↔ (idx (ix2 (j 0) 0)).toInt = (b.val : ℤ) := by
  unfold ScatterDims.resultIdx?
  simp only [start_eq, window_eq]
  constructor
  · intro h
    split_ifs at h with hc
    have h0 := congrArg (fun f => (f 0).val) (Option.some.inj h)
    simp only at h0
    have := (hc 0).1
    change ((idx (ix2 (j 0) 0)).toInt + ((0 : ℕ) : ℤ)).toNat = b.val at h0
    omega
  · intro h
    have hb := b.isLt
    have hc : ∀ a : Fin S10.rank, 0 ≤ (idx (ix2 (j 0) 0)).toInt + ((0 : ℕ) : ℤ) ∧ (idx (ix2 (j 0) 0)).toInt + ((0 : ℕ) : ℤ) < S10.size a := by
      intro a
      match a with
      | ⟨0, _⟩ =>
        show 0 ≤ (idx (ix2 (j 0) 0)).toInt + ((0 : ℕ) : ℤ) ∧ (idx (ix2 (j 0) 0)).toInt + ((0 : ℕ) : ℤ) < ((10 : ℕ) : ℤ)
        omega
    rw [dif_pos hc]
    congr 1
    funext a
    match a with
    | ⟨0, _⟩ =>
      apply Fin.ext
      show ((idx (ix2 (j 0) 0)).toInt + ((0 : ℕ) : ℤ)).toNat = b.val
      omega

/-- The scatter-add of this program at entry `b`: the initial entry plus the sum over all samples of the
    update where the sample's index word, read signed, is `b`. -/
theorem scatter_apply (x : FVec Ideal S10 .f32) (idx : IVec S33554432x1 32) (upd : FVec Ideal S33554432 .f32) (b : Fin 10) :
    Host.scatterAdd scatter_S10_S33554432x1_S33554432_n_0_0_1 x idx upd (ix1 b)
      = x (ix1 b) + ∑ j : S33554432.Idx, if (idx (ix2 (j 0) 0)).toInt = (b.val : ℤ) then upd j else 0 := by
  show Ideal.hostScatterAdd scatter_S10_S33554432x1_S33554432_n_0_0_1 x idx upd (ix1 b) = _
  unfold Ideal.hostScatterAdd
  rw [Finset.sum_filter]
  simp only [resultIdx_iff]

/-- The index word of sample `j` is the reference's bin of its confidence. -/
theorem bin_eq (x0 : (⟨S33554432, .f32⟩ : BufTy).Contents (Elt Ideal)) (j : S33554432.Idx) :
    PRead.val_main_v7 (F := Ideal) x0 j = rBin (x0 j) := by
  rw [PRead.val_main_v7_apply, PRead.val_main_call0_v4_apply, PRead.val_main_call0_v2_apply, PRead.val_main_call0_v1_apply,
    PRead.val_main_v6_apply, PRead.val_main_v5_apply, PRead.val_main_v4_apply, PRead.val_main_v3_apply,
    PRead.val_main_v2_apply, PRead.val_main_v1_apply]
  rfl

/-- The index arrays of the three scatter-adds at row `j`, column `0`, are that bin. -/
theorem idx15_eq (x0 : (⟨S33554432, .f32⟩ : BufTy).Contents (Elt Ideal)) (j : S33554432.Idx) :
    PRead.val_main_v15 (F := Ideal) x0 (ix2 (j 0) 0) = rBin (x0 j) := by
  rw [PRead.val_main_v15_apply]
  have hj : PRead.idx_main_v15 (ix2 (j 0) 0) = j := by
    funext a; match a with | ⟨0, _⟩ => rfl
  rw [hj, bin_eq]

theorem idx19_eq (x0 : (⟨S33554432, .f32⟩ : BufTy).Contents (Elt Ideal)) (j : S33554432.Idx) :
    PRead.val_main_v19 (F := Ideal) x0 (ix2 (j 0) 0) = rBin (x0 j) := by
  rw [PRead.val_main_v19_apply]
  have hj : PRead.idx_main_v19 (ix2 (j 0) 0) = j := by
    funext a; match a with | ⟨0, _⟩ => rfl
  rw [hj, bin_eq]

theorem idx23_eq (x0 : (⟨S33554432, .f32⟩ : BufTy).Contents (Elt Ideal)) (j : S33554432.Idx) :
    PRead.val_main_v23 (F := Ideal) x0 (ix2 (j 0) 0) = rBin (x0 j) := by
  rw [PRead.val_main_v23_apply]
  have hj : PRead.idx_main_v23 (ix2 (j 0) 0) = j := by
    funext a; match a with | ⟨0, _⟩ => rfl
  rw [hj, bin_eq]

/-- The count update of sample `j` is its weight. -/
theorem weight_eq (x0 : (⟨S33554432, .f32⟩ : BufTy).Contents (Elt Ideal)) (j : S33554432.Idx) :
    PRead.val_main_v13 (F := Ideal) x0 j = rW (x0 j) := by
  rw [PRead.val_main_v13_apply, PRead.val_main_v12_apply, PRead.val_main_v9_apply, PRead.val_main_v11_apply,
    PRead.val_main_v8_apply, PRead.val_main_v10_apply]
  rfl

/-- The zero row reads zero. -/
theorem zero_word : FloatOps.ofBits (F := Ideal) .f32 0x00000000#32 = (0 : EReal) := Ideal.ofBits_zero_f32

/-- The reference's result is the calibration error of its three scatter-added rows. -/
theorem result_eq (x0 : (⟨S33554432, .f32⟩ : BufTy).Contents (Elt Ideal)) (x1 : (⟨S33554432, .i32⟩ : BufTy).Contents (Elt Ideal)) :
    PRead.val_main_v38 (F := Ideal) x0 x1
      = ece (F := Ideal) bcast_S_S10 reducesTo_S10_S_d0 h_S_ shapeCasts_S_S1
          (PRead.val_main_v16 (F := Ideal) x0) (PRead.val_main_v20 (F := Ideal) x0) (PRead.val_main_v24 (F := Ideal) x0 x1) := by
  rfl

/-- The count row: entry `b` is the number of valid samples whose bin is `b`. -/
theorem cnt_apply (x0 : (⟨S33554432, .f32⟩ : BufTy).Contents (Elt Ideal)) (b : Fin 10) :
    PRead.val_main_v16 (F := Ideal) x0 (ix1 b)
      = ∑ j : S33554432.Idx, if (rBin (x0 j)).toInt = (b.val : ℤ) then rW (x0 j) else 0 := by
  unfold PRead.val_main_v16
  rw [scatter_apply, PRead.val_main_v14_apply, PRead.val_main_cst_4_apply, zero_word, zero_add]
  refine Finset.sum_congr rfl fun j _ => ?_
  rw [idx15_eq, weight_eq]

/-- The confidence row: entry `b` is the sum of the valid confidences whose bin is `b`. -/
theorem conf_apply (x0 : (⟨S33554432, .f32⟩ : BufTy).Contents (Elt Ideal)) (b : Fin 10) :
    PRead.val_main_v20 (F := Ideal) x0 (ix1 b)
      = ∑ j : S33554432.Idx, if (rBin (x0 j)).toInt = (b.val : ℤ) then x0 j * rW (x0 j) else 0 := by
  unfold PRead.val_main_v20
  rw [scatter_apply, PRead.val_main_v18_apply, PRead.val_main_cst_5_apply, zero_word, zero_add]
  refine Finset.sum_congr rfl fun j _ => ?_
  rw [idx19_eq, PRead.val_main_v17_apply, weight_eq]
  rfl

/-- The correctness row: entry `b` is the sum of the correctness words of the valid samples whose bin is `b`. -/
theorem acc_apply (x0 : (⟨S33554432, .f32⟩ : BufTy).Contents (Elt Ideal)) (x1 : (⟨S33554432, .i32⟩ : BufTy).Contents (Elt Ideal))
    (b : Fin 10) :
    PRead.val_main_v24 (F := Ideal) x0 x1 (ix1 b)
      = ∑ j : S33554432.Idx, if (rBin (x0 j)).toInt = (b.val : ℤ) then (((x1 j).toInt : ℝ) : EReal) * rW (x0 j) else 0 := by
  unfold PRead.val_main_v24
  rw [scatter_apply, PRead.val_main_v22_apply, PRead.val_main_cst_6_apply, zero_word, zero_add]
  refine Finset.sum_congr rfl fun j _ => ?_
  rw [idx23_eq, PRead.val_main_v21_apply, PRead.val_main_v0_apply, weight_eq]
  rfl

end Cert.ReferenceIdeal.RefValue

end
-- ==== Proof.Bridge.lean ====
/-
  The two programs' results are one value.

  Both results are the calibration error of three ten-entry rows.  Entry `b` of the kernel's count
  row is lane `b` of its accumulator after the last point, the sum over all samples of the
  indicator that the kernel's bin is `b` times the weight; entry `b` of the reference's count row is the
  sum over all samples of the weight where the reference's bin is `b`, zero elsewhere.  Sample by sample
  the two terms agree: on a valid confidence the two bins are one word and the weight is `1`, on an
  invalid one both terms are `0`.  The confidence and correctness rows likewise.
-/
import proofs.«117713_j17343077941754_1_alg».proof.Proof.KFinal
import proofs.«117713_j17343077941754_1_alg».proof.Proof.KSum
import proofs.«117713_j17343077941754_1_alg».proof.Proof.RefValue
import proofs.«117713_j17343077941754_1_alg».proof.Proof.Elem
import Idealize.ShloMosaic.Lib.ValueIdx
import Idealize.ShloMosaic.Lib.ValueLayout
import Idealize.ShloMosaic.Lib.Pipeline.Value

noncomputable section

namespace Cert.KernelIdeal.Hist

open Idealize.ShloMosaic Idealize.ShloMosaic.TcCoe Idealize.SL.Sem Idealize.ShloMosaic.ValueIdx
open Cert.KernelIdeal Cert.KernelIdeal.Gen Cert.Hist

/-- Entry `b` of the first ten lanes of a row is lane `b` of the row. -/
theorem row10_apply (X : FVec Ideal S1x128 .f32) (b : Fin 10) :
    row10 X (ix1 b) = X (ix2 (0 : Fin 1) (laneOf b)) := by
  unfold row10
  rw [shapeCast_1a_a_apply]
  exact extractStridedSlice_apply _ X _ _ _ (fun a => by
    match a with
    | ⟨0, _⟩ => rfl
    | ⟨1, _⟩ => exact (Nat.zero_add _).symm)

variable (m : (ℓ : Loc nD τ sig) → Buf (Elt Ideal) ℓ)

/-- The kernel's count row is the reference's, computed from the same confidences. -/
theorem cnt_row (c : Dev nD) :
    row10 (F := Ideal) (resCnt m c) = Cert.ReferenceIdeal.PRead.val_main_v16 (F := Ideal) (m ((c : Thread nD τ).loc main_arg0)) := by
  funext i
  obtain ⟨b, rfl⟩ : ∃ b : Fin 10, i = ix1 b := ⟨i 0, eq_ix1 i⟩
  rw [row10_apply, Cert.ReferenceIdeal.RefValue.cnt_apply]
  show cntAt m c 63 h63 (ix2 (0 : Fin 1) (laneOf b)) = _
  rw [cnt_total]
  exact Finset.sum_congr rfl fun j _ => kT0_eq b _

/-- The kernel's confidence row is the reference's. -/
theorem conf_row (c : Dev nD) :
    row10 (F := Ideal) (resConf m c) = Cert.ReferenceIdeal.PRead.val_main_v20 (F := Ideal) (m ((c : Thread nD τ).loc main_arg0)) := by
  funext i
  obtain ⟨b, rfl⟩ : ∃ b : Fin 10, i = ix1 b := ⟨i 0, eq_ix1 i⟩
  rw [row10_apply, Cert.ReferenceIdeal.RefValue.conf_apply]
  show confAt m c 63 h63 (ix2 (0 : Fin 1) (laneOf b)) = _
  rw [conf_total]
  exact Finset.sum_congr rfl fun j _ => kT1_eq b _

/-- The kernel's correctness row is the reference's. -/
theorem acc_row (c : Dev nD) :
    row10 (F := Ideal) (resAcc m c) = Cert.ReferenceIdeal.PRead.val_main_v24 (F := Ideal) (m ((c : Thread nD τ).loc main_arg0))
      (m ((c : Thread nD τ).loc main_arg1)) := by
  funext i
  obtain ⟨b, rfl⟩ : ∃ b : Fin 10, i = ix1 b := ⟨i 0, eq_ix1 i⟩
  rw [row10_apply, Cert.ReferenceIdeal.RefValue.acc_apply]
  show accAt m c 63 h63 (ix2 (0 : Fin 1) (laneOf b)) = _
  rw [acc_total]
  exact Finset.sum_congr rfl fun j _ => kT2_eq b _ _

/-- The kernel program's result is the reference's last stage at the same arguments. -/
theorem kres_eq (c : Dev nD) :
    Cert.ReferenceIdeal.PRead.val_main_v38 (F := Ideal) (m ((c : Thread nD τ).loc main_arg0)) (m ((c : Thread nD τ).loc main_arg1))
      = kres m c := by
  rw [Cert.ReferenceIdeal.RefValue.result_eq]
  unfold kres
  rw [cnt_row, conf_row, acc_row]

end Cert.KernelIdeal.Hist

end
-- ==== Proof.lean ====
/-
  The certificate of the calibration-histogram kernel against its reference.

  The kernel streams the `2^25` confidences and correctness words in sixty-four blocks and keeps, in
  three `1 × 128` accumulator rows, per bin `b = 0 … 9` (lane `b`) the number of valid samples, the sum
  of their confidences and the sum of their correctness words; the reference scatter-adds the same three
  quantities onto ten-entry rows.  Both then compute the expected calibration error from the three rows
  by the same host operations.  On the extended reals the rows agree entry by entry (Proof/Bridge.lean),
  so the results agree.  The frames of the two kernel programs are the generated ones; the reference's
  frame is its run with the result dropped; the ideal pass rewrote nothing, so `preserves` is trivial.
-/
import proofs.«117713_j17343077941754_1_alg».proof.Defs
import proofs.«117713_j17343077941754_1_alg».proof.Proof.Gen.Kernel
import proofs.«117713_j17343077941754_1_alg».proof.Proof.Gen.Kernel.Frame
import proofs.«117713_j17343077941754_1_alg».proof.Proof.Gen.KernelIdeal
import proofs.«117713_j17343077941754_1_alg».proof.Proof.Gen.KernelIdeal.Frame
import proofs.«117713_j17343077941754_1_alg».proof.Proof.Gen.ReferenceIdeal
import proofs.«117713_j17343077941754_1_alg».proof.Proof.Gen.Pre_finite_inputs
import proofs.«117713_j17343077941754_1_alg».proof.Proof.RefRun
import proofs.«117713_j17343077941754_1_alg».proof.Proof.RefRead
import proofs.«117713_j17343077941754_1_alg».proof.Proof.KFinal
import proofs.«117713_j17343077941754_1_alg».proof.Proof.Bridge
import Idealize.ShloMosaic.Adequacy
import Idealize.ShloMosaic.Init

noncomputable section

namespace Cert.Proof

open Idealize.ShloMosaic Idealize.SL.Sem

theorem frame_k : @Cert.frame_Kernel Cert.Kernel.Gen.facts Cert.Pre_finite_inputs.Gen.facts :=
  fun m ρ _ => Cert.Kernel.Gen.frame m ρ

theorem frame_ki : @Cert.frame_KernelIdeal Cert.KernelIdeal.Gen.facts Cert.Pre_finite_inputs.Gen.facts :=
  fun m ρ _ => Cert.KernelIdeal.Gen.frame m ρ

theorem frame_ri : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.PValue.run (F := Ideal) m ρ)

/-- From memories that agree on the arguments both programs end at the calibration error of the kernel's three rows. -/
theorem algebraic : @Cert.algebraic_KernelIdeal_ReferenceIdeal Cert.KernelIdeal.Gen.facts Cert.ReferenceIdeal.Gen.facts
    Cert.Pre_finite_inputs.Gen.facts := by
  intro m ρ m' ρ' _ hagree
  refine ⟨fun c => Cert.KernelIdeal.Hist.kres m c, Cert.KernelIdeal.Hist.run (F := Ideal) m ρ, ?_⟩
  refine (θ_run Cert.ReferenceIdeal.defs _ _).mono (fun _ h c => ⟨(h c).1.trans ?_, (h c).2⟩)
    (Cert.ReferenceIdeal.PValue.run (F := Ideal) m' ρ')
  rw [Cert.ReferenceIdeal.PRead.val_main_v38_eq, (hagree c).1, (hagree c).2]
  exact Cert.KernelIdeal.Hist.kres_eq m c

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
